-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S262144x1 : Shape := ⟨2, ![262144, 1]⟩
abbrev S256x7 : Shape := ⟨2, ![256, 7]⟩
abbrev S256 : Shape := ⟨1, ![256]⟩
abbrev S256x256 : Shape := ⟨2, ![256, 256]⟩
abbrev S128x256 : Shape := ⟨2, ![128, 256]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_
  bcast_S_S256x7 : S_.BroadcastsInDim S256x7 (![] : Fin 0 → Fin S256x7.rank)
  reducesTo_S256x7_S_d0_1 : S256x7.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  reducesTo_S_S_d : S_.ReducesTo [] S_

variable [Facts]

def fn_part3 {F : FTy → Type} [FloatOps F] (main_arg11 : FVec F S3 .f32) (main_arg12 : FVec F S_ .f32) (main_arg13 : FVec F S_ .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : FVec F S_ .f32 := Host.absf main_arg12
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  let main_v63 : FVec F S_ .f32 := Host.absf main_arg13
  let main_cst_24 : FVec F S_ .f32 := constant S_ .f32 0x7F800000#32
  let main_v64 : IVec S_ 1 := cmpf .olt main_v63 main_cst_24
  let main_c_25 : IVec S_ 1 := constantI S_ 1 1#1
  let main_v65 : IVec S_ 1 := (fun x v => Host.reduce IntOp.andi x v reducesTo_S_S_d h_S_) main_v64 main_c_25
  let main_v66 : IVec S_ 1 := andi main_v62 main_v65
  main_v66

def fn_part2 {F : FTy → Type} [FloatOps F] (main_arg7 : FVec F S256 .f32) (main_arg8 : FVec F S128x256 .f32) (main_arg9 : FVec F S128 .f32) (main_arg10 : FVec F S3x128 .f32) (main_arg11 : FVec F S3 .f32) (main_arg12 : FVec F S_ .f32) (main_arg13 : FVec F S_ .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_arg13 main_v48 main_v49 main_v50

def fn_part1 {F : FTy → Type} [FloatOps F] (main_arg4 : FVec F S256x7 .f32) (main_arg5 : FVec F S256 .f32) (main_arg6 : FVec F S256x256 .f32) (main_arg7 : FVec F S256 .f32) (main_arg8 : FVec F S128x256 .f32) (main_arg9 : FVec F S128 .f32) (main_arg10 : FVec F S3x128 .f32) (main_arg11 : FVec F S3 .f32) (main_arg12 : FVec F S_ .f32) (main_arg13 : FVec F S_ .f32) (main_v13 : IVec S_ 1) (main_v16 : IVec S262144x3 1) : IVec S_ 1 :=
  let main_c_5 : IVec S_ 1 := constantI S_ 1 1#1
  let main_v17 : IVec S_ 1 := (fun x v => Host.reduce IntOp.andi x v reducesTo_S262144x3_S_d0_1 h_S_) main_v16 main_c_5
  let main_v18 : IVec S_ 1 := andi main_v13 main_v17
  let main_v19 : FVec F S256x7 .f32 := Host.absf main_arg4
  let main_cst_6 : FVec F S_ .f32 := constant S_ .f32 0x7F800000#32
  let main_v20 : FVec F S256x7 .f32 := broadcastInDim S256x7 ![] bcast_S_S256x7 main_cst_6
  let main_v21 : IVec S256x7 1 := cmpf .olt main_v19 main_v20
  let main_c_7 : IVec S_ 1 := constantI S_ 1 1#1
  let main_v22 : IVec S_ 1 := (fun x v => Host.reduce IntOp.andi x v reducesTo_S256x7_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S262144x3 .f32) (main_arg1 : FVec F S262144x1 .f32) (main_arg2 : FVec F S262144x3 .f32) (main_arg3 : FVec F S262144x3 .f32) (main_arg4 : FVec F S256x7 .f32) (main_arg5 : FVec F S256 .f32) (main_arg6 : FVec F S256x256 .f32) (main_arg7 : FVec F S256 .f32) (main_arg8 : FVec F S128x256 .f32) (main_arg9 : FVec F S128 .f32) (main_arg10 : FVec F S3x128 .f32) (main_arg11 : FVec F S3 .f32) (main_arg12 : FVec F S_ .f32) (main_arg13 : FVec F S_ .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S262144x1 .f32 := Host.absf main_arg1
  let main_cst_0 : FVec F S_ .f32 := constant S_ .f32 0x7F800000#32
  let main_v5 : FVec F S262144x1 .f32 := broadcastInDim S262144x1 ![] bcast_S_S262144x1 main_cst_0
  let main_v6 : IVec S262144x1 1 := cmpf .olt main_v4 main_v5
  let main_c_1 : IVec S_ 1 := constantI S_ 1 1#1
  let main_v7 : IVec S_ 1 := (fun x v => Host.reduce IntOp.andi x v reducesTo_S262144x1_S_d0_1 h_S_) main_v6 main_c_1
  let main_v8 : IVec S_ 1 := andi main_v3 main_v7
  let main_v9 : FVec F S262144x3 .f32 := Host.absf main_arg2
  let main_cst_2 : FVec F S_ .f32 := constant S_ .f32 0x7F800000#32
  let main_v10 : FVec F S262144x3 .f32 := broadcastInDim S262144x3 ![] bcast_S_S262144x3 main_cst_2
  let main_v11 : IVec S262144x3 1 := cmpf .olt main_v9 main_v10
  let main_c_3 : IVec S_ 1 := constantI S_ 1 1#1
  let main_v12 : IVec S_ 1 := (fun x v => Host.reduce IntOp.andi x v reducesTo_S262144x3_S_d0_1 h_S_) main_v11 main_c_3
  let main_v13 : IVec S_ 1 := andi main_v8 main_v12
  let main_v14 : FVec F S262144x3 .f32 := Host.absf main_arg3
  let main_cst_4 : FVec F S_ .f32 := constant S_ .f32 0x7F800000#32
  let main_v15 : FVec F S262144x3 .f32 := broadcastInDim S262144x3 ![] bcast_S_S262144x3 main_cst_4
  let main_v16 : IVec S262144x3 1 := cmpf .olt main_v14 main_v15
  fn_part1 (F := F) main_arg4 main_arg5 main_arg6 main_arg7 main_arg8 main_arg9 main_arg10 main_arg11 main_arg12 main_arg13 main_v13 main_v16
-- ==== Kernel.lean ====
abbrev S262144x3 : Shape := ⟨2, ![262144, 3]⟩
abbrev S262144x1 : Shape := ⟨2, ![262144, 1]⟩
abbrev S256x7 : Shape := ⟨2, ![256, 7]⟩
abbrev S256 : Shape := ⟨1, ![256]⟩
abbrev S256x256 : Shape := ⟨2, ![256, 256]⟩
abbrev S128x256 : Shape := ⟨2, ![128, 256]⟩
abbrev S128 : Shape := ⟨1, ![128]⟩
abbrev S3x128 : Shape := ⟨2, ![3, 128]⟩
abbrev S3 : Shape := ⟨1, ![3]⟩
abbrev S_ : Shape := ⟨0, ![]⟩
abbrev S7x256 : Shape := ⟨2, ![7, 256]⟩
abbrev S3x256 : Shape := ⟨2, ![3, 256]⟩
abbrev S1x256 : Shape := ⟨2, ![1, 256]⟩
abbrev S10x256 : Shape := ⟨2, ![10, 256]⟩
abbrev S256x128 : Shape := ⟨2, ![256, 128]⟩
abbrev S128x3 : Shape := ⟨2, ![128, 3]⟩
abbrev S262144x10 : Shape := ⟨2, ![262144, 10]⟩
abbrev S4096x10 : Shape := ⟨2, ![4096, 10]⟩
abbrev S4096x3 : Shape := ⟨2, ![4096, 3]⟩
abbrev S4096x256 : Shape := ⟨2, ![4096, 256]⟩
abbrev S4096x128 : Shape := ⟨2, ![4096, 128]⟩
abbrev S1x128 : Shape := ⟨2, ![1, 128]⟩
abbrev S1x3 : Shape := ⟨2, ![1, 3]⟩
abbrev S4096 : Shape := ⟨1, ![4096]⟩
abbrev S4096x1 : Shape := ⟨2, ![4096, 1]⟩

abbrev nBuf : Space → Nat
  | .hbm => 52
  | .vmem => 12
  | .smem => 0
  | _ => 0

abbrev bufTy : (tb : Table) → Fin (tcTables nBuf tb) → BufTy
  | .hbm, ⟨0, _⟩ => ⟨S262144x3, .f32⟩
  | .hbm, ⟨1, _⟩ => ⟨S262144x1, .f32⟩
  | .hbm, ⟨2, _⟩ => ⟨S262144x3, .f32⟩
  | .hbm, ⟨3, _⟩ => ⟨S262144x3, .f32⟩
  | .hbm, ⟨4, _⟩ => ⟨S256x7, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S3x128, .f32⟩
  | .hbm, ⟨11, _⟩ => ⟨S3, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S7x256, .f32⟩
  | .hbm, ⟨28, _⟩ => ⟨S3x256, .f32⟩
  | .hbm, ⟨29, _⟩ => ⟨S1x256, .f32⟩
  | .hbm, ⟨30, _⟩ => ⟨S3x256, .f32⟩
  | .hbm, ⟨31, _⟩ => ⟨S3x256, .f32⟩
  | .hbm, ⟨32, _⟩ => ⟨S3x256, .f32⟩
  | .hbm, ⟨33, _⟩ => ⟨S_, .f32⟩
  | .hbm, ⟨34, _⟩ => ⟨S_, .f32⟩
  | .hbm, ⟨35, _⟩ => ⟨S3x256, .f32⟩
  | .hbm, ⟨36, _⟩ => ⟨S3x256, .f32⟩
  | .hbm, ⟨37, _⟩ => ⟨S10x256, .f32⟩
  | .hbm, ⟨38, _⟩ => ⟨S10x256, .bf16⟩
  | .hbm, ⟨39, _⟩ => ⟨S256x256, .f32⟩
  | .hbm, ⟨40, _⟩ => ⟨S256x256, .bf16⟩
  | .hbm, ⟨41, _⟩ => ⟨S256x128, .f32⟩
  | .hbm, ⟨42, _⟩ => ⟨S256x128, .bf16⟩
  | .hbm, ⟨43, _⟩ => ⟨S3x128, .f32⟩
  | .hbm, ⟨44, _⟩ => ⟨S3x128, .f32⟩
  | .hbm, ⟨45, _⟩ => ⟨S128x3, .f32⟩
  | .hbm, ⟨46, _⟩ => ⟨S128x3, .bf16⟩
  | .hbm, ⟨47, _⟩ => ⟨S3, .f32⟩
  | .hbm, ⟨48, _⟩ => ⟨S3, .f32⟩
  | .hbm, ⟨49, _⟩ => ⟨S262144x10, .f32⟩
  | .hbm, ⟨50, _⟩ => ⟨S262144x10, .bf16⟩
  | .hbm, ⟨51, _⟩ => ⟨S262144x3, .f32⟩
  | .local _ .vmem, ⟨0, _⟩ => ⟨S4096x10, .bf16⟩
  | .local _ .vmem, ⟨1, _⟩ => ⟨S4096x10, .bf16⟩
  | .local _ .vmem, ⟨2, _⟩ => ⟨S10x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x128, .bf16⟩
  | .local _ .vmem, ⟨7, _⟩ => ⟨S128, .f32⟩
  | .local _ .vmem, ⟨8, _⟩ => ⟨S128x3, .bf16⟩
  | .local _ .vmem, ⟨9, _⟩ => ⟨S3, .f32⟩
  | .local _ .vmem, ⟨10, _⟩ => ⟨S4096x3, .f32⟩
  | .local _ .vmem, ⟨11, _⟩ => ⟨S4096x3, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x10 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x3 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x7_S7x256_1_0 : S256x7.Transposes [1, 0] S7x256
  slices_S7x256_S3x256_0_0 : S7x256.Slices ![0, 0] S3x256
  slices_S7x256_S1x256_3_0 : S7x256.Slices ![3, 0] S1x256
  slices_S7x256_S3x256_4_0 : S7x256.Slices ![4, 0] S3x256
  bcast_S_S3x256 : S_.BroadcastsInDim S3x256 (![] : Fin 0 → Fin S3x256.rank)
  concatenates_S3x256_S1x256_S3x256_S3x256_S10x256_d0 : Shape.Concatenates [S3x256, S1x256, S3x256, S3x256] S10x256 0
  bitsLt_bf16_f32 : FTy.bits .bf16 < FTy.bits .f32
  transposes_S256x256_S256x256_1_0 : S256x256.Transposes [1, 0] S256x256
  transposes_S128x256_S256x128_1_0 : S128x256.Transposes [1, 0] S256x128
  bcast_S_S3x128 : S_.BroadcastsInDim S3x128 (![] : Fin 0 → Fin S3x128.rank)
  transposes_S3x128_S128x3_1_0 : S3x128.Transposes [1, 0] S128x3
  bcast_S_S3 : S_.BroadcastsInDim S3 (![] : Fin 0 → Fin S3.rank)
  concatenates_S262144x3_S262144x1_S262144x3_S262144x3_S262144x10_d1 : Shape.Concatenates [S262144x3, S262144x1, S262144x3, S262144x3] S262144x10 1
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3_S3_0 : ∀ a, (![0] : Fin 1 → Nat) a + S3.size a ≤ S3.size a
  h_S3 : 0 < S3.numel
  shapeCasts_S3_S3 : S3.ShapeCasts S3
  shapeCasts_S3_S1x3 : S3.ShapeCasts S1x3
  broadcasts_S1x3_S4096x3 : S1x3.Broadcasts S4096x3
  reduces_S4096x3_S4096 : S4096x3.Reduces [1] S4096
  shapeCasts_S4096_S4096x1 : S4096.ShapeCasts S4096x1
  broadcasts_S4096x1_S4096x3 : S4096x1.Broadcasts S4096x3
  inb_S4096x3_S4096x3_0_0 : ∀ a, (![0, 0] : Fin 2 → Nat) a + S4096x3.size a ≤ S4096x3.size a
  h_S4096x3 : 0 < S4096x3.numel
  dot_S4096x10_S10x256_S4096x256_1_0_0_1_n_n_wf : DotDims.WF S4096x10 S10x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S4096x128_S128x3_S4096x3_1_0_0_1_n_n_wf : DotDims.WF S4096x128 S128x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x10.size a ≤ S262144x10.size a
  hwx0_0 : ∀ i : grid0.Coords, EltTy.bits .bf16 = 32 ∨ (Rect.block (s := S262144x10) S4096x10.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x256.size a ≤ S10x256.size a
  hwx0_1 : ∀ i : grid0.Coords, EltTy.bits .bf16 = 32 ∨ (Rect.block (s := S10x256) S10x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x3.size a ≤ S128x3.size a
  hwx0_7 : ∀ i : grid0.Coords, EltTy.bits .bf16 = 32 ∨ (Rect.block (s := S128x3) S128x3.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x3.size a ≤ S262144x3.size a
  hwx0_9 : ∀ i : grid0.Coords, EltTy.bits .f32 = 32 ∨ (Rect.block (s := S262144x3) S4096x3.size (cc0_transform_9 i) (hinb0_9 i)).WholeWords (EltTy.packing .f32)

variable [Facts₀]

def dot_S4096x10_S10x256_S4096x256_1_0_0_1_n_n : DotDims S4096x10 S10x256 S4096x256 where
  lhsContracting := [1]
  rhsContracting := [0]
  lhsNonContracting := [0]
  rhsNonContracting := [1]
  lhsBatch := []
  rhsBatch := []
  wf := dot_S4096x10_S10x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x3_S4096x3_1_0_0_1_n_n : DotDims S4096x128 S128x3 S4096x3 where
  lhsContracting := [1]
  rhsContracting := [0]
  lhsNonContracting := [0]
  rhsNonContracting := [1]
  lhsBatch := []
  rhsBatch := []
  wf := dot_S4096x128_S128x3_S4096x3_1_0_0_1_n_n_wf

abbrev win0_0 : Pipeline.Window sig grid0 :=
  Pipeline.Window.ofSpec (Memref.whole main_v28) S4096x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S128x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S4096x3.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x3 : Shape := ⟨2, ![262144, 3]⟩
abbrev S262144x1 : Shape := ⟨2, ![262144, 1]⟩
abbrev S256x7 : Shape := ⟨2, ![256, 7]⟩
abbrev S256 : Shape := ⟨1, ![256]⟩
abbrev S256x256 : Shape := ⟨2, ![256, 256]⟩
abbrev S128x256 : Shape := ⟨2, ![128, 256]⟩
abbrev S128 : Shape := ⟨1, ![128]⟩
abbrev S3x128 : Shape := ⟨2, ![3, 128]⟩
abbrev S3 : Shape := ⟨1, ![3]⟩
abbrev S_ : Shape := ⟨0, ![]⟩
abbrev S262144x7 : Shape := ⟨2, ![262144, 7]⟩
abbrev S7x256 : Shape := ⟨2, ![7, 256]⟩
abbrev S262144x256 : Shape := ⟨2, ![262144, 256]⟩
abbrev S1x256 : Shape := ⟨2, ![1, 256]⟩
abbrev S256x128 : Shape := ⟨2, ![256, 128]⟩
abbrev S262144x128 : Shape := ⟨2, ![262144, 128]⟩
abbrev S1x128 : Shape := ⟨2, ![1, 128]⟩
abbrev S128x3 : Shape := ⟨2, ![128, 3]⟩
abbrev S1x3 : Shape := ⟨2, ![1, 3]⟩
abbrev S262144 : Shape := ⟨1, ![262144]⟩

abbrev nBuf : Space → Nat
  | .hbm => 98
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S262144x1, .f32⟩
  | .hbm, ⟨2, _⟩ => ⟨S262144x3, .f32⟩
  | .hbm, ⟨3, _⟩ => ⟨S262144x3, .f32⟩
  | .hbm, ⟨4, _⟩ => ⟨S256x7, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S3x128, .f32⟩
  | .hbm, ⟨11, _⟩ => ⟨S3, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S262144x3, .f32⟩
  | .hbm, ⟨28, _⟩ => ⟨S262144x3, .f32⟩
  | .hbm, ⟨29, _⟩ => ⟨S_, .f32⟩
  | .hbm, ⟨30, _⟩ => ⟨S_, .f32⟩
  | .hbm, ⟨31, _⟩ => ⟨S262144x3, .f32⟩
  | .hbm, ⟨32, _⟩ => ⟨S262144x3, .f32⟩
  | .hbm, ⟨33, _⟩ => ⟨S262144x3, .f32⟩
  | .hbm, ⟨34, _⟩ => ⟨S262144x7, .f32⟩
  | .hbm, ⟨35, _⟩ => ⟨S7x256, .f32⟩
  | .hbm, ⟨36, _⟩ => ⟨S262144x256, .f32⟩
  | .hbm, ⟨37, _⟩ => ⟨S1x256, .f32⟩
  | .hbm, ⟨38, _⟩ => ⟨S262144x256, .f32⟩
  | .hbm, ⟨39, _⟩ => ⟨S262144x256, .f32⟩
  | .hbm, ⟨40, _⟩ => ⟨S262144x256, .f32⟩
  | .hbm, ⟨41, _⟩ => ⟨S262144x256, .f32⟩
  | .hbm, ⟨42, _⟩ => ⟨S_, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S262144x256, .f32⟩
  | .hbm, ⟨47, _⟩ => ⟨S262144x256, .f32⟩
  | .hbm, ⟨48, _⟩ => ⟨S262144x256, .f32⟩
  | .hbm, ⟨49, _⟩ => ⟨S256x256, .f32⟩
  | .hbm, ⟨50, _⟩ => ⟨S262144x256, .f32⟩
  | .hbm, ⟨51, _⟩ => ⟨S1x256, .f32⟩
  | .hbm, ⟨52, _⟩ => ⟨S262144x256, .f32⟩
  | .hbm, ⟨53, _⟩ => ⟨S262144x256, .f32⟩
  | .hbm, ⟨54, _⟩ => ⟨S262144x256, .f32⟩
  | .hbm, ⟨55, _⟩ => ⟨S262144x256, .f32⟩
  | .hbm, ⟨56, _⟩ => ⟨S_, .f32⟩
  | .hbm, ⟨57, _⟩ => ⟨S262144x256, .f32⟩
  | .hbm, ⟨58, _⟩ => ⟨S262144x256, .f32⟩
  | .hbm, ⟨59, _⟩ => ⟨S_, .f32⟩
  | .hbm, ⟨60, _⟩ => ⟨S262144x256, .f32⟩
  | .hbm, ⟨61, _⟩ => ⟨S262144x256, .f32⟩
  | .hbm, ⟨62, _⟩ => ⟨S262144x256, .f32⟩
  | .hbm, ⟨63, _⟩ => ⟨S256x128, .f32⟩
  | .hbm, ⟨64, _⟩ => ⟨S262144x128, .f32⟩
  | .hbm, ⟨65, _⟩ => ⟨S1x128, .f32⟩
  | .hbm, ⟨66, _⟩ => ⟨S262144x128, .f32⟩
  | .hbm, ⟨67, _⟩ => ⟨S262144x128, .f32⟩
  | .hbm, ⟨68, _⟩ => ⟨S262144x128, .f32⟩
  | .hbm, ⟨69, _⟩ => ⟨S262144x128, .f32⟩
  | .hbm, ⟨70, _⟩ => ⟨S_, .f32⟩
  | .hbm, ⟨71, _⟩ => ⟨S262144x128, .f32⟩
  | .hbm, ⟨72, _⟩ => ⟨S262144x128, .f32⟩
  | .hbm, ⟨73, _⟩ => ⟨S_, .f32⟩
  | .hbm, ⟨74, _⟩ => ⟨S262144x128, .f32⟩
  | .hbm, ⟨75, _⟩ => ⟨S262144x128, .f32⟩
  | .hbm, ⟨76, _⟩ => ⟨S262144x128, .f32⟩
  | .hbm, ⟨77, _⟩ => ⟨S128x3, .f32⟩
  | .hbm, ⟨78, _⟩ => ⟨S262144x3, .f32⟩
  | .hbm, ⟨79, _⟩ => ⟨S1x3, .f32⟩
  | .hbm, ⟨80, _⟩ => ⟨S262144x3, .f32⟩
  | .hbm, ⟨81, _⟩ => ⟨S262144x3, .f32⟩
  | .hbm, ⟨82, _⟩ => ⟨S262144x3, .f32⟩
  | .hbm, ⟨83, _⟩ => ⟨S262144x3, .f32⟩
  | .hbm, ⟨84, _⟩ => ⟨S_, .f32⟩
  | .hbm, ⟨85, _⟩ => ⟨S262144, .f32⟩
  | .hbm, ⟨86, _⟩ => ⟨S_, .f32⟩
  | .hbm, ⟨87, _⟩ => ⟨S262144, .f32⟩
  | .hbm, ⟨88, _⟩ => ⟨S262144, .f32⟩
  | .hbm, ⟨89, _⟩ => ⟨S262144x1, .f32⟩
  | .hbm, ⟨90, _⟩ => ⟨S262144x3, .f32⟩
  | .hbm, ⟨91, _⟩ => ⟨S262144x3, .f32⟩
  | .hbm, ⟨92, _⟩ => ⟨S262144x3, .f32⟩
  | .hbm, ⟨93, _⟩ => ⟨S_, .f32⟩
  | .hbm, ⟨94, _⟩ => ⟨S262144, .f32⟩
  | .hbm, ⟨95, _⟩ => ⟨S262144x1, .f32⟩
  | .hbm, ⟨96, _⟩ => ⟨S262144x3, .f32⟩
  | .hbm, ⟨97, _⟩ => ⟨S262144x3, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_call3_v5 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_cst_4 : Ref sig .tc := ⟨.hbm, 84, rfl⟩
abbrev main_v38 : Ref sig .tc := ⟨.hbm, 85, rfl⟩
abbrev main_cst_5 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_6 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩

abbrev nD : Nat := 1
abbrev τ : Topo := Topo.v7x

variable {F : FTy → Type} [FloatOps F]

class Facts₀ : Prop where
  bcast_S_S262144x3 : S_.BroadcastsInDim S262144x3 (![] : Fin 0 → Fin S262144x3.rank)
  concatenates_S262144x3_S262144x1_S262144x3_S262144x7_d1 : Shape.Concatenates [S262144x3, S262144x1, S262144x3] S262144x7 1
  transposes_S256x7_S7x256_1_0 : S256x7.Transposes [1, 0] S7x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  transposes_S3x128_S128x3_1_0 : S3x128.Transposes [1, 0] S128x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  reducesTo_S262144x3_S262144_d1 : S262144x3.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x3_0_1 : S262144x1.BroadcastsInDim S262144x3 (![0, 1] : Fin 2 → Fin S262144x3.rank)
  dot_S262144x7_S7x256_S262144x256_1_0_0_1_n_n_wf : DotDims.WF S262144x7 S7x256 S262144x256 [1] [0] [0] [1] [] []
  dot_S262144x256_S256x256_S262144x256_1_0_0_1_n_n_wf : DotDims.WF S262144x256 S256x256 S262144x256 [1] [0] [0] [1] [] []
  dot_S262144x256_S256x128_S262144x128_1_0_0_1_n_n_wf : DotDims.WF S262144x256 S256x128 S262144x128 [1] [0] [0] [1] [] []
  dot_S262144x128_S128x3_S262144x3_1_0_0_1_n_n_wf : DotDims.WF S262144x128 S128x3 S262144x3 [1] [0] [0] [1] [] []

variable [Facts₀]

def dot_S262144x7_S7x256_S262144x256_1_0_0_1_n_n : DotDims S262144x7 S7x256 S262144x256 where
  lhsContracting := [1]
  rhsContracting := [0]
  lhsNonContracting := [0]
  rhsNonContracting := [1]
  lhsBatch := []
  rhsBatch := []
  wf := dot_S262144x7_S7x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.KEntryBits.lean ====
/-
  The contents of every buffer when the one kernel launch is entered: the program's memory after the 37 host
  operations that precede the launch (the scalar `β` and `δ`, the packing of the four narrow inputs into
  one ten-column array, the stacking of the first layer's weights, the transposes).  None of those
  operations writes an argument array, so each argument is found as the program was started.
-/
import proofs.«406189_j49297634623652_3_alg».proof.Proof.Gen.Kernel.Launch
import Idealize.ShloMosaic.Lib.Pipeline.FrameBody

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffers when the launch is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its launch is the three stretches of host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the launch writes argument 0: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 1: the launch finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 2: the launch finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 3: the launch finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 4: the launch finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 5: the launch finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 6: the launch finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 7: the launch finds it as the program was started. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 8: the launch finds it as the program was started. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 9: the launch finds it as the program was started. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 10: the launch finds it as the program was started. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 11: the launch finds it as the program was started. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 12: the launch finds it as the program was started. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 13: the launch finds it as the program was started. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))

end Cert.Kernel.Frame

end
-- ==== Proof.KFrameBits.lean ====
/-
  The frame of the one kernel launch: the program runs to its end on every weakly fair schedule, faults
  nowhere, and leaves its fourteen argument arrays as they were.

  The launch walks a grid of 64 points.  At point `t` it stages rows `4096·t … 4096·t+4095` of the packed
  input (window 0) and the whole of each weight and bias array (windows 1–8, fetched once), calls the body, and
  writes the body's 4096×3 block of window 9 back to rows `4096·t …` of the result.  The body loads its nine
  input blocks whole, computes, and stores ONE value covering the whole output block; so after the body the
  output's staging buffer holds that value (`out0_9`), whatever it held before, and every input buffer is
  untouched.  That is the proof data (`dats`); the body's triple (`sound_kernel`) is its symbolic execution;
  the library's launch theorem turns the two into the run (`run_main`), whose post names the result array and
  keeps every other buffer at its entry contents, the arguments among them (`frame`).
-/
import proofs.«406189_j49297634623652_3_alg».proof.Proof.KEntryBits
import proofs.«406189_j49297634623652_3_alg».proof.Proof.Gen.Kernel.Skeleton
import proofs.«406189_j49297634623652_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there
    (a window that is not re-fetched has not moved), for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether or not it was fetched there
    (a window that is not re-fetched has not moved), for any proof data over the entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether or not it was fetched there
    (a window that is not re-fetched has not moved), for any proof data over the entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether or not it was fetched there
    (a window that is not re-fetched has not moved), for any proof data over the entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether or not it was fetched there
    (a window that is not re-fetched has not moved), for any proof data over the entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether or not it was fetched there
    (a window that is not re-fetched has not moved), for any proof data over the entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether or not it was fetched there
    (a window that is not re-fetched has not moved), for any proof data over the entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether or not it was fetched there
    (a window that is not re-fetched has not moved), for any proof data over the entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether or not it was fetched there
    (a window that is not re-fetched has not moved), for any proof data over the entry contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run whose post names every array of the launch and keeps every other buffer: the fourteen arguments
    are unchanged.  Arguments 5, 7 and 9 (the biases) are staged by windows 2, 4 and 6 and are inputs, so they
    end as they began; the other arguments are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).1 4).trans (((dats 0 c).arrAt_in 4 rfl _).trans ((hA c 4).trans (V_main_arg7 m c))),
      ((h c).2 main_arg8 (Pipeline.mem_restRefs_of main_arg8 (by decide) (by decide))).trans (V_main_arg8 m c),
      ((h c).1 6).trans (((dats 0 c).arrAt_in 6 rfl _).trans ((hA c 6).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses: each buffer whole -/

abbrev r0_0 : Rect S4096x10 := Rect.unit (s := S4096x10) ![0, 0] S4096x10.size inb_S4096x10_S4096x10_0_0
abbrev r0_1 : Rect S10x256 := Rect.unit (s := S10x256) ![0, 0] S10x256.size inb_S10x256_S10x256_0_0
abbrev r0_2 : Rect S256 := Rect.unit (s := S256) ![0] S256.size inb_S256_S256_0
abbrev r0_3 : Rect S256x256 := Rect.unit (s := S256x256) ![0, 0] S256x256.size inb_S256x256_S256x256_0_0
abbrev r0_4 : Rect S256x128 := Rect.unit (s := S256x128) ![0, 0] S256x128.size inb_S256x128_S256x128_0_0
abbrev r0_5 : Rect S128 := Rect.unit (s := S128) ![0] S128.size inb_S128_S128_0
abbrev r0_6 : Rect S128x3 := Rect.unit (s := S128x3) ![0, 0] S128x3.size inb_S128x3_S128x3_0_0
abbrev r0_7 : Rect S3 := Rect.unit (s := S3) ![0] S3.size inb_S3_S3_0
abbrev r0_8 : Rect S4096x3 := Rect.unit (s := S4096x3) ![0, 0] S4096x3.size inb_S4096x3_S4096x3_0_0

/-! ## What the body leaves in the output window's buffer -/

/-- The output's staging buffer after the body, from the nine input blocks: its one store, of the body's
    arithmetic on the loaded blocks, over the whole buffer. -/
def out0_9 (x0 : Vec F S4096x10 .bf16) (x1 : Vec F S10x256 .bf16) (x2 : Vec F S256 .f32) (x3 : Vec F S256x256 .bf16) (x4 : Vec F S256 .f32) (x5 : Vec F S256x128 .bf16) (x6 : Vec F S128 .f32) (x7 : Vec F S128x3 .bf16) (x8 : Vec F S3 .f32) : Vec F S4096x3 .f32 :=
  View.canon [⟨r0_8, k0_pay1 (k0_pay2 (View.ld x0 r0_0) (View.ld x1 r0_1) (View.ld x2 r0_2) (View.ld x3 r0_3) (View.ld x4 r0_2) (View.ld x5 r0_4))
    (k0_pay3 (View.ld x6 r0_5)) (View.ld x7 r0_6) (View.ld x8 r0_7)⟩]

/-- The one store covers the buffer. -/
theorem cover0_9 (p0 : Vec F S4096x3 .f32) (y : S4096x3.Idx) :
    ∃ pc ∈ ([⟨r0_8, p0⟩] : List (View.Piece (Elt F) S4096x3 .f32)), y ∈ pc.1.set :=
  View.cover_of_tiled [⟨r0_8, p0⟩] S4096x3.size (by rfl) y

/-! ## The body's triple -/

set_option maxHeartbeats 4000000 in
/-- The body on whole staging buffers, the nine inputs' at contents `x0 … x8` and the output's at anything,
    runs to the continuation with the inputs' as they were and the output's at `out0_9` of them. -/
theorem sound_kernel (c : Dev nD) (E : Set ℕ) (i : grid0.Coords) (arg1 : Memref sig .tc .vmem S4096x10 .bf16) (harg1 : arg1.IsWhole) (arg2 : Memref sig .tc .vmem S10x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S128x3 .bf16) (harg8 : arg8.IsWhole) (arg9 : Memref sig .tc .vmem S3 .f32) (harg9 : arg9.IsWhole) (arg10 : Memref sig .tc .vmem S4096x3 .f32) (harg10 : arg10.IsWhole)
    (x0 : Vec F S4096x10 .bf16) (x1 : Vec F S10x256 .bf16) (x2 : Vec F S256 .f32) (x3 : Vec F S256x256 .bf16) (x4 : Vec F S256 .f32) (x5 : Vec F S256x128 .bf16) (x6 : Vec F S128 .f32) (x7 : Vec F S128x3 .bf16) (x8 : Vec F S3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The launch's proof data -/

/-- The proof data on core `c`: the arrays as the launch finds them; after the body at point `t` each input's
    buffer at its block and the output's at `out0_9` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; in every final state each array of the launch is what
    the launch computes from the proof data and every other buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frame

end
-- ==== Proof.KEntry.lean ====
/-
  The contents of every buffer when the one kernel launch is entered: the program's memory after the 37 host
  operations that precede the launch (the scalar `β` and `δ`, the packing of the four narrow inputs into
  one ten-column array, the stacking of the first layer's weights, the transposes).  None of those
  operations writes an argument array, so each argument is found as the program was started.
-/
import proofs.«406189_j49297634623652_3_alg».proof.Proof.Gen.KernelIdeal.Launch
import Idealize.ShloMosaic.Lib.Pipeline.FrameBody

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffers when the launch is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its launch is the three stretches of host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the launch writes argument 0: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 1: the launch finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 2: the launch finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 3: the launch finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 4: the launch finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 5: the launch finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 6: the launch finds it as the program was started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 7: the launch finds it as the program was started. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 8: the launch finds it as the program was started. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 9: the launch finds it as the program was started. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 10: the launch finds it as the program was started. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 11: the launch finds it as the program was started. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 12: the launch finds it as the program was started. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))
/-- No host operation before the launch writes argument 13: the launch finds it as the program was started. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, Finset.mem_singleton]
    repeat' apply And.intro
    all_goals exact StableHlo.devRef_ne_of_ne (by decide)))

end Cert.KernelIdeal.Frame

end
-- ==== Proof.KFrame.lean ====
/-
  The frame of the one kernel launch: the program runs to its end on every weakly fair schedule, faults
  nowhere, and leaves its fourteen argument arrays as they were.

  The launch walks a grid of 64 points.  At point `t` it stages rows `4096·t … 4096·t+4095` of the packed
  input (window 0) and the whole of each weight and bias array (windows 1–8, fetched once), calls the body, and
  writes the body's 4096×3 block of window 9 back to rows `4096·t …` of the result.  The body loads its nine
  input blocks whole, computes, and stores ONE value covering the whole output block; so after the body the
  output's staging buffer holds that value (`out0_9`), whatever it held before, and every input buffer is
  untouched.  That is the proof data (`dats`); the body's triple (`sound_kernel`) is its symbolic execution;
  the library's launch theorem turns the two into the run (`run_main`), whose post names the result array and
  keeps every other buffer at its entry contents, the arguments among them (`frame`).
-/
import proofs.«406189_j49297634623652_3_alg».proof.Proof.KEntry
import proofs.«406189_j49297634623652_3_alg».proof.Proof.Gen.KernelIdeal.Skeleton
import proofs.«406189_j49297634623652_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether or not it was fetched there
    (a window that is not re-fetched has not moved), for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether or not it was fetched there
    (a window that is not re-fetched has not moved), for any proof data over the entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether or not it was fetched there
    (a window that is not re-fetched has not moved), for any proof data over the entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether or not it was fetched there
    (a window that is not re-fetched has not moved), for any proof data over the entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether or not it was fetched there
    (a window that is not re-fetched has not moved), for any proof data over the entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether or not it was fetched there
    (a window that is not re-fetched has not moved), for any proof data over the entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether or not it was fetched there
    (a window that is not re-fetched has not moved), for any proof data over the entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether or not it was fetched there
    (a window that is not re-fetched has not moved), for any proof data over the entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether or not it was fetched there
    (a window that is not re-fetched has not moved), for any proof data over the entry contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run whose post names every array of the launch and keeps every other buffer: the fourteen arguments
    are unchanged.  Arguments 5, 7 and 9 (the biases) are staged by windows 2, 4 and 6 and are inputs, so they
    end as they began; the other arguments are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).1 4).trans (((dats 0 c).arrAt_in 4 rfl _).trans ((hA c 4).trans (V_main_arg7 m c))),
      ((h c).2 main_arg8 (Pipeline.mem_restRefs_of main_arg8 (by decide) (by decide))).trans (V_main_arg8 m c),
      ((h c).1 6).trans (((dats 0 c).arrAt_in 6 rfl _).trans ((hA c 6).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses: each buffer whole -/

abbrev r0_0 : Rect S4096x10 := Rect.unit (s := S4096x10) ![0, 0] S4096x10.size inb_S4096x10_S4096x10_0_0
abbrev r0_1 : Rect S10x256 := Rect.unit (s := S10x256) ![0, 0] S10x256.size inb_S10x256_S10x256_0_0
abbrev r0_2 : Rect S256 := Rect.unit (s := S256) ![0] S256.size inb_S256_S256_0
abbrev r0_3 : Rect S256x256 := Rect.unit (s := S256x256) ![0, 0] S256x256.size inb_S256x256_S256x256_0_0
abbrev r0_4 : Rect S256x128 := Rect.unit (s := S256x128) ![0, 0] S256x128.size inb_S256x128_S256x128_0_0
abbrev r0_5 : Rect S128 := Rect.unit (s := S128) ![0] S128.size inb_S128_S128_0
abbrev r0_6 : Rect S128x3 := Rect.unit (s := S128x3) ![0, 0] S128x3.size inb_S128x3_S128x3_0_0
abbrev r0_7 : Rect S3 := Rect.unit (s := S3) ![0] S3.size inb_S3_S3_0
abbrev r0_8 : Rect S4096x3 := Rect.unit (s := S4096x3) ![0, 0] S4096x3.size inb_S4096x3_S4096x3_0_0

/-! ## What the body leaves in the output window's buffer -/

/-- The output's staging buffer after the body, from the nine input blocks: its one store, of the body's
    arithmetic on the loaded blocks, over the whole buffer. -/
def out0_9 (x0 : Vec F S4096x10 .bf16) (x1 : Vec F S10x256 .bf16) (x2 : Vec F S256 .f32) (x3 : Vec F S256x256 .bf16) (x4 : Vec F S256 .f32) (x5 : Vec F S256x128 .bf16) (x6 : Vec F S128 .f32) (x7 : Vec F S128x3 .bf16) (x8 : Vec F S3 .f32) : Vec F S4096x3 .f32 :=
  View.canon [⟨r0_8, k0_pay1 (k0_pay2 (View.ld x0 r0_0) (View.ld x1 r0_1) (View.ld x2 r0_2) (View.ld x3 r0_3) (View.ld x4 r0_2) (View.ld x5 r0_4))
    (k0_pay3 (View.ld x6 r0_5)) (View.ld x7 r0_6) (View.ld x8 r0_7)⟩]

/-- The one store covers the buffer. -/
theorem cover0_9 (p0 : Vec F S4096x3 .f32) (y : S4096x3.Idx) :
    ∃ pc ∈ ([⟨r0_8, p0⟩] : List (View.Piece (Elt F) S4096x3 .f32)), y ∈ pc.1.set :=
  View.cover_of_tiled [⟨r0_8, p0⟩] S4096x3.size (by rfl) y

/-! ## The body's triple -/

set_option maxHeartbeats 4000000 in
/-- The body on whole staging buffers, the nine inputs' at contents `x0 … x8` and the output's at anything,
    runs to the continuation with the inputs' as they were and the output's at `out0_9` of them. -/
theorem sound_kernel (c : Dev nD) (E : Set ℕ) (i : grid0.Coords) (arg1 : Memref sig .tc .vmem S4096x10 .bf16) (harg1 : arg1.IsWhole) (arg2 : Memref sig .tc .vmem S10x256 .bf16) (harg2 : arg2.IsWhole) (arg3 : Memref sig .tc .vmem S256 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S128x3 .bf16) (harg8 : arg8.IsWhole) (arg9 : Memref sig .tc .vmem S3 .f32) (harg9 : arg9.IsWhole) (arg10 : Memref sig .tc .vmem S4096x3 .f32) (harg10 : arg10.IsWhole)
    (x0 : Vec F S4096x10 .bf16) (x1 : Vec F S10x256 .bf16) (x2 : Vec F S256 .f32) (x3 : Vec F S256x256 .bf16) (x4 : Vec F S256 .f32) (x5 : Vec F S256x128 .bf16) (x6 : Vec F S128 .f32) (x7 : Vec F S128x3 .bf16) (x8 : Vec F S3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The launch's proof data -/

/-- The proof data on core `c`: the arrays as the launch finds them; after the body at point `t` each input's
    buffer at its block and the output's at `out0_9` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; in every final state each array of the launch is what
    the launch computes from the proof data and every other buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frame

end
-- ==== Proof.Spec.lean ====
/-
  The mathematics of the certificate, stated once over the extended reals and free of either program.

  Each of the 262144 rows is an independent four-layer perceptron followed by a softmax over three
  logits.  The kernel and the reference arrange the same computation differently:

  * layer 1.  The reference blends two of its inputs first, `δ·xb + (1-δ)·q`, concatenates to seven
    features and multiplies by `W1ᵀ`.  The kernel concatenates ten raw features and folds the blend
    into the weights: rows `δ·W1ᵀ[4..6]` and `(1-δ)·W1ᵀ[4..6]`.  Equal by distributivity, which
    needs every factor to be a real number.
  * the activation.  The reference applies `h · (1 / (1 + e^{-h}))`; the kernel applies
    `h · (½ · (1 + tanh (½·h)))`.  On a real `h` these are one number.
  * layer 4.  The reference scales the logits by `β` afterwards; the kernel scales `W4` and `b4`
    beforehand.  Again distributivity over the reals.
  * the softmax is the same expression on both sides.
-/
import Idealize.ShloMosaic.PureOps.Ideal
import Idealize.ShloMosaic.PureOps.Ideal.Laws

noncomputable section

namespace Cert.Mlp

open Idealize.ShloMosaic

/-! ## The literals both programs use -/

/-- `0.5` as the f32 pattern both programs print. -/
abbrev cHalf : EReal := Ideal.ofBits .f32 0x3F000000#32
/-- `1.0`. -/
abbrev cOne : EReal := Ideal.ofBits .f32 0x3F800000#32
/-- `20.0`, the upper clip of `β`. -/
abbrev c20 : EReal := Ideal.ofBits .f32 0x41A00000#32
/-- `-∞`, the neutral element of the row maximum. -/
abbrev cNegInf : EReal := Ideal.ofBits .f32 0xFF800000#32

/-- An extended real that is a real number. -/
def IsReal (x : EReal) : Prop := ∃ r : ℝ, x = (r : EReal)

/-! ## Pieces -/

/-- The kernel's activation: `h · (½ · (1 + tanh (½ · h)))`. -/
def actK (h : EReal) : EReal := h * (cHalf * (cOne + Ideal.tanh (cHalf * h)))

/-- The reference's activation: `h · (1 / (1 + e^{-h}))`. -/
def actR (h : EReal) : EReal := h * Ideal.div cOne (cOne + Ideal.exp (-h))

/-- One entry of a dense layer: `Σ_k x_k · w_k + b`. -/
def dense {K : ℕ} (x w : Fin K → EReal) (b : EReal) : EReal := (∑ k : Fin K, x k * w k) + b

/-- The maximum of a row of three logits, folded from `-∞`. -/
def rowMax (l : Fin 3 → EReal) : EReal := (Finset.univ : Finset (Fin 3)).fold max cNegInf l

/-- The softmax of three logits in the shifted form both programs use. -/
def smax (l : Fin 3 → EReal) (g : Fin 3) : EReal :=
  Ideal.div (Ideal.exp (l g - rowMax l)) (∑ k : Fin 3, Ideal.exp (l k - rowMax l))

/-- `β = clip (e^{log_beta}, ½, 20)`. -/
def beta (lb : EReal) : EReal := min c20 (max cHalf (Ideal.exp lb))

/-- `δ = 1 / (1 + e^{-log_delta})`. -/
def delta (ld : EReal) : EReal := Ideal.div cOne (cOne + Ideal.exp (-ld))

/-! ## The kernel's row -/

/-- The kernel's logits of one row from its ten packed features and its packed weights
    (`w` indexed contraction-first, as the kernel's matmuls take them). -/
def kLogits (x : Fin 10 → EReal) (w1 : Fin 10 → Fin 256 → EReal) (b1 : Fin 256 → EReal)
    (w2 : Fin 256 → Fin 256 → EReal) (b2 : Fin 256 → EReal)
    (w3 : Fin 256 → Fin 128 → EReal) (b3 : Fin 128 → EReal)
    (w4 : Fin 128 → Fin 3 → EReal) (b4 : Fin 3 → EReal) (g : Fin 3) : EReal :=
  dense (fun j : Fin 128 => actK (dense (fun j : Fin 256 => actK (dense (fun j : Fin 256 => actK (dense x (fun k => w1 k j) (b1 j)))
    (fun k => w2 k j) (b2 j))) (fun k => w3 k j) (b3 j))) (fun k => w4 k g) (b4 g)

/-- The kernel's output row. -/
def kOut (x : Fin 10 → EReal) (w1 : Fin 10 → Fin 256 → EReal) (b1 : Fin 256 → EReal)
    (w2 : Fin 256 → Fin 256 → EReal) (b2 : Fin 256 → EReal)
    (w3 : Fin 256 → Fin 128 → EReal) (b3 : Fin 128 → EReal)
    (w4 : Fin 128 → Fin 3 → EReal) (b4 : Fin 3 → EReal) (g : Fin 3) : EReal :=
  smax (kLogits x w1 b1 w2 b2 w3 b3 w4 b4) g

/-- The ten packed features of a row: `p | y | xb | q`. -/
def xcat (p : Fin 3 → EReal) (y : EReal) (xb q : Fin 3 → EReal) : Fin 10 → EReal :=
  ![p 0, p 1, p 2, y, xb 0, xb 1, xb 2, q 0, q 1, q 2]

/-- The kernel's stacked first-layer weights from `W1` (stored output-first) and `log_delta`:
    rows `W1ᵀ[0..3]`, then `δ·W1ᵀ[4..6]`, then `(1-δ)·W1ᵀ[4..6]`. -/
def w1s (W1 : Fin 256 → Fin 7 → EReal) (ld : EReal) : Fin 10 → Fin 256 → EReal := fun k j =>
  ![W1 j 0, W1 j 1, W1 j 2, W1 j 3, delta ld * W1 j 4, delta ld * W1 j 5, delta ld * W1 j 6,
    (cOne - delta ld) * W1 j 4, (cOne - delta ld) * W1 j 5, (cOne - delta ld) * W1 j 6] k

/-- The kernel's output row from the ORIGINAL arguments: what its host glue packs, then `kOut`. -/
def kFinal (p : Fin 3 → EReal) (y : EReal) (xb q : Fin 3 → EReal)
    (W1 : Fin 256 → Fin 7 → EReal) (b1 : Fin 256 → EReal) (W2 : Fin 256 → Fin 256 → EReal) (b2 : Fin 256 → EReal)
    (W3 : Fin 128 → Fin 256 → EReal) (b3 : Fin 128 → EReal) (W4 : Fin 3 → Fin 128 → EReal) (b4 : Fin 3 → EReal)
    (lb ld : EReal) (g : Fin 3) : EReal :=
  kOut (xcat p y xb q) (w1s W1 ld) b1 (fun k j => W2 j k) b2 (fun k j => W3 j k) b3
    (fun k g => beta lb * W4 g k) (fun g => beta lb * b4 g) g

/-! ## The reference's row -/

/-- The reference's seven features of a row: `p | y | δ·xb + (1-δ)·q`. -/
def xin (p : Fin 3 → EReal) (y : EReal) (xb q : Fin 3 → EReal) (ld : EReal) : Fin 7 → EReal :=
  ![p 0, p 1, p 2, y, delta ld * xb 0 + (cOne - delta ld) * q 0, delta ld * xb 1 + (cOne - delta ld) * q 1,
    delta ld * xb 2 + (cOne - delta ld) * q 2]

/-- The reference's logits of one row (weights stored output-first, as `reference()` takes them). -/
def rLogits (p : Fin 3 → EReal) (y : EReal) (xb q : Fin 3 → EReal)
    (W1 : Fin 256 → Fin 7 → EReal) (b1 : Fin 256 → EReal) (W2 : Fin 256 → Fin 256 → EReal) (b2 : Fin 256 → EReal)
    (W3 : Fin 128 → Fin 256 → EReal) (b3 : Fin 128 → EReal) (W4 : Fin 3 → Fin 128 → EReal) (b4 : Fin 3 → EReal)
    (lb ld : EReal) (g : Fin 3) : EReal :=
  dense (fun j : Fin 128 => actR (dense (fun j : Fin 256 => actR (dense (fun j : Fin 256 => actR (dense (xin p y xb q ld) (fun k => W1 j k) (b1 j)))
    (fun k => W2 j k) (b2 j))) (fun k => W3 j k) (b3 j))) (fun k => W4 g k) (b4 g) * beta lb

/-- The reference's output row. -/
def rOut (p : Fin 3 → EReal) (y : EReal) (xb q : Fin 3 → EReal)
    (W1 : Fin 256 → Fin 7 → EReal) (b1 : Fin 256 → EReal) (W2 : Fin 256 → Fin 256 → EReal) (b2 : Fin 256 → EReal)
    (W3 : Fin 128 → Fin 256 → EReal) (b3 : Fin 128 → EReal) (W4 : Fin 3 → Fin 128 → EReal) (b4 : Fin 3 → EReal)
    (lb ld : EReal) (g : Fin 3) : EReal :=
  smax (rLogits p y xb q W1 b1 W2 b2 W3 b3 W4 b4 lb ld) g

end Cert.Mlp

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KBlock.lean ====
/-
  The kernel body's arithmetic, read at one entry of its output block.

  The body's stored value is one pure term of the nine loaded blocks.  Read at row `p`, column `g` of the
  4096×3 output block it depends only on row `p` of the packed-input block and on the weight and bias
  blocks: three dense layers with the tanh-form activation, a fourth dense layer, and the softmax over
  the row's three logits — the row function `Cert.Mlp.kOut`.
-/
import proofs.«406189_j49297634623652_3_alg».proof.Proof.Gen.KernelIdeal.Skeleton
import proofs.«406189_j49297634623652_3_alg».proof.Proof.Spec
import proofs.«406189_j49297634623652_3_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen

/-! ### Where plain row-by-column dimension numbers read their operands -/

section Plain
variable {A K B : Nat} (D : DotDims (⟨2, ![A, K]⟩ : Shape) (⟨2, ![K, B]⟩ : Shape) (⟨2, ![A, B]⟩ : Shape))

/-- With no batch axis and the left operand's rows kept first, the left operand is read at the output's row. -/
theorem lhs_row (hb : D.lhsBatch = []) (hn : D.lhsNonContracting = [0]) (i : (⟨2, ![A, B]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  have key : ∀ (a b : Nat) (ha : a < 2) (hb' : b < 2), a = b → (i ⟨a, ha⟩).val = (i ⟨b, hb'⟩).val :=
    fun a b ha hb' h => by subst h; rfl
  exact key _ 0 _ (by decide) (by simp [hb, hn])

/-- With no batch axis and the right operand's columns kept after the left operand's rows, the right operand is
    read at the output's column. -/
theorem rhs_col (hb : D.rhsBatch = []) (hlb : D.lhsBatch = []) (hln : D.lhsNonContracting = [0]) (hn : D.rhsNonContracting = [1])
    (i : (⟨2, ![A, B]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  have key : ∀ (a b : Nat) (ha : a < 2) (hb' : b < 2), a = b → (i ⟨a, ha⟩).val = (i ⟨b, hb'⟩).val :=
    fun a b ha hb' h => by subst h; rfl
  exact key _ 1 _ (by decide) (by simp [hlb, hln, hn])

end Plain

/-! ### One dense stage read at an entry -/

section Plain
variable {A K B : Nat} (D : DotDims (⟨2, ![A, K]⟩ : Shape) (⟨2, ![K, B]⟩ : Shape) (⟨2, ![A, B]⟩ : Shape))

/-- A product into the zero accumulator plus a one-row bias broadcast over the rows, at entry `(p, j)`: the dot
    product of row `p` of the left operand with column `j` of the right one, plus the bias's entry `j`. -/
theorem dense_at {φ₁ φ₂ : FTy} (hr : D.contr.rank = 1) (hs : D.contr.size ⟨0, by omega⟩ = K)
    (hlc : D.lhsContracting = [1]) (hrc : D.rhsContracting = [0]) (hln : D.lhsNonContracting = [0])
    (hrn : D.rhsNonContracting = [1]) (hlb : D.lhsBatch = []) (hrb : D.rhsBatch = [])
    (l : FVec Ideal (⟨2, ![A, K]⟩ : Shape) φ₁) (r : FVec Ideal (⟨2, ![K, B]⟩ : Shape) φ₂)
    (b : FVec Ideal (⟨2, ![1, B]⟩ : Shape) .f32) (h : (⟨2, ![1, B]⟩ : Shape).Broadcasts ⟨2, ![A, B]⟩) (p : Fin A) (j : Fin B) :
    addf (matmul D none l r (constant (F := Ideal) (⟨2, ![A, B]⟩ : Shape) .f32 0x00000000#32)) (broadcastTo (⟨2, ![A, B]⟩ : Shape) b h) (ix2 p j)
      = Cert.Mlp.dense (fun k => l (ix2 p k)) (fun k => r (ix2 k j)) (b (ix2 (0 : Fin 1) j)) := by
  rw [addf_apply, broadcastTo_1b_ab_apply]
  exact congrArg (· + b (ix2 (0 : Fin 1) j)) (MatmulAt.matmul_zero_at D hr hs (lhs_row D hlb hln)
    (fun i q => D.lhsIdx_val_of_single hlc i q) (fun i q => D.rhsIdx_val_of_single hrc i q) (rhs_col D hrb hlb hln hrn) none l r p j)

end Plain

/-! ### The four layers of the body -/

/-- Layer 1 at entry `(p, j)`: both operands pass through an identity cast, the bias through `[256] → [1, 256]`. -/
theorem layer1_at (v0 : FVec Ideal S4096x10 .bf16) (v2 : FVec Ideal S10x256 .bf16) (v5 : FVec Ideal S256 .f32)
    (h0 : S4096x10.ShapeCasts S4096x10) (h2 : S10x256.ShapeCasts S10x256) (h5 : S256.ShapeCasts S1x256)
    (hb : S1x256.Broadcasts S4096x256) (p : Fin 4096) (j : Fin 256) :
    addf (matmul dot_S4096x10_S10x256_S4096x256_1_0_0_1_n_n none (shapeCast S4096x10 v0 h0) (shapeCast S10x256 v2 h2)
        (constant (F := Ideal) S4096x256 .f32 0x00000000#32)) (broadcastTo S4096x256 (shapeCast S1x256 v5 h5) hb) (ix2 p j)
      = Cert.Mlp.dense (fun k => v0 (ix2 p k)) (fun k => v2 (ix2 k j)) (v5 (ix1 j)) := by
  rw [shapeCast_self, shapeCast_self]
  refine (dense_at dot_S4096x10_S10x256_S4096x256_1_0_0_1_n_n rfl rfl rfl rfl rfl rfl rfl rfl v0 v2 _ hb p j).trans ?_
  rw [shapeCast_a_1a_apply]

/-- Layer 2 at entry `(p, j)`: the left operand is the previous layer's output narrowed to bf16, which over the
    extended reals is itself. -/
theorem layer2_at (u : FVec Ideal S4096x256 .f32) (v18 : FVec Ideal S256x256 .bf16) (v21 : FVec Ideal S256 .f32)
    (ht : FTy.bits .bf16 < FTy.bits .f32) (h18 : S256x256.ShapeCasts S256x256) (h21 : S256.ShapeCasts S1x256)
    (hb : S1x256.Broadcasts S4096x256) (p : Fin 4096) (j : Fin 256) :
    addf (matmul dot_S4096x256_S256x256_S4096x256_1_0_0_1_n_n none (truncf .bf16 u ht) (shapeCast S256x256 v18 h18)
        (constant (F := Ideal) S4096x256 .f32 0x00000000#32)) (broadcastTo S4096x256 (shapeCast S1x256 v21 h21) hb) (ix2 p j)
      = Cert.Mlp.dense (fun k => u (ix2 p k)) (fun k => v18 (ix2 k j)) (v21 (ix1 j)) := by
  rw [shapeCast_self]
  refine (dense_at dot_S4096x256_S256x256_S4096x256_1_0_0_1_n_n rfl rfl rfl rfl rfl rfl rfl rfl (truncf .bf16 u ht) v18 _ hb p j).trans ?_
  rw [shapeCast_a_1a_apply]
  rfl

/-- Layer 3 at entry `(p, j)`. -/
theorem layer3_at (u : FVec Ideal S4096x256 .f32) (v34 : FVec Ideal S256x128 .bf16) (v37 : FVec Ideal S128 .f32)
    (ht : FTy.bits .bf16 < FTy.bits .f32) (h34 : S256x128.ShapeCasts S256x128) (h37 : S128.ShapeCasts S1x128)
    (hb : S1x128.Broadcasts S4096x128) (p : Fin 4096) (j : Fin 128) :
    addf (matmul dot_S4096x256_S256x128_S4096x128_1_0_0_1_n_n none (truncf .bf16 u ht) (shapeCast S256x128 v34 h34)
        (constant (F := Ideal) S4096x128 .f32 0x00000000#32)) (broadcastTo S4096x128 (shapeCast S1x128 v37 h37) hb) (ix2 p j)
      = Cert.Mlp.dense (fun k => u (ix2 p k)) (fun k => v34 (ix2 k j)) (v37 (ix1 j)) := by
  rw [shapeCast_self]
  refine (dense_at dot_S4096x256_S256x128_S4096x128_1_0_0_1_n_n rfl rfl rfl rfl rfl rfl rfl rfl (truncf .bf16 u ht) v34 _ hb p j).trans ?_
  rw [shapeCast_a_1a_apply]
  rfl

/-- Layer 4 at entry `(p, g)`: the bias passes through an identity cast before `[3] → [1, 3]`. -/
theorem layer4_at (u : FVec Ideal S4096x128 .f32) (v50 : FVec Ideal S128x3 .bf16) (v53 : FVec Ideal S3 .f32)
    (ht : FTy.bits .bf16 < FTy.bits .f32) (h50 : S128x3.ShapeCasts S128x3) (h53 : S3.ShapeCasts S3) (h53' : S3.ShapeCasts S1x3)
    (hb : S1x3.Broadcasts S4096x3) (p : Fin 4096) (g : Fin 3) :
    addf (matmul dot_S4096x128_S128x3_S4096x3_1_0_0_1_n_n none (truncf .bf16 u ht) (shapeCast S128x3 v50 h50)
        (constant (F := Ideal) S4096x3 .f32 0x00000000#32)) (broadcastTo S4096x3 (shapeCast S1x3 (shapeCast S3 v53 h53) h53') hb) (ix2 p g)
      = Cert.Mlp.dense (fun k => u (ix2 p k)) (fun k => v50 (ix2 k g)) (v53 (ix1 g)) := by
  rw [shapeCast_self, shapeCast_self]
  refine (dense_at dot_S4096x128_S128x3_S4096x3_1_0_0_1_n_n rfl rfl rfl rfl rfl rfl rfl rfl (truncf .bf16 u ht) v50 _ hb p g).trans ?_
  rw [shapeCast_a_1a_apply]
  rfl

/-! ### The activation -/

/-- `h · (½ · (1 + tanh (½ · h)))` with splat constants, at any entry, is the kernel's activation of the entry. -/
theorem act_at {s : Shape} (v : FVec Ideal s .f32) (i : s.Idx) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F000000#32)) v)))) i = Cert.Mlp.actK (v i) := rfl

/-! ### A row statistic put back on the row's entries -/

/-- A per-row value cast `[4096] → [4096, 1]` and broadcast over the three columns reads, at `(p, g)`, the
    value of row `p`. -/
theorem col_at {α : Type} (w : S4096.Idx → α) (hc : S4096.ShapeCasts S4096x1) (hb : S4096x1.Broadcasts S4096x3)
    (p : Fin 4096) (g : Fin 3) :
    broadcastTo S4096x3 (shapeCast S4096x1 w hc) hb (ix2 p g) = w (ix1 p) := by
  refine (broadcastTo_apply (shapeCast S4096x1 w hc) hb (ix2 p g) (ix2 p (0 : Fin 1)) fun a => ?_).trans ?_
  · match a with
    | ⟨0, _⟩ => rfl
    | ⟨1, _⟩ => rfl
  · refine shapeCast_apply w hc (ix2 p (0 : Fin 1)) (ix1 p) ?_
    rw [Shape.rowMajor_val_two, Shape.rowMajor_val_one]
    show p.val = p.val * 1 + 0
    omega

/-- The index a reduction over the columns inserts is the entry `(p, k)`. -/
theorem lift_eq (h : S4096x3.Reduces [1] S4096) (p : Fin 4096) (k : Fin 3) : h.lift (ix1 p) k = ix2 p k :=
  funext fun a => Fin.ext (by
    match a with
    | ⟨0, _⟩ => rfl
    | ⟨1, _⟩ => rfl)

/-- The maximum over the columns from `-∞`, at row `p`, is the row maximum of the row's three entries. -/
theorem rowMax_at (v : FVec Ideal S4096x3 .f32) (h : S4096x3.Reduces [1] S4096) (hφ : FKind.Formats .f32)
    (hacc : (0xFF800000#32 : BitVec 32) = FKind.maximumf.neutral .f32 hφ) (p : Fin 4096) :
    multiReduction (F := Ideal) .maximumf [1] S4096 v 0xFF800000#32 h hφ hacc (ix1 p) = Cert.Mlp.rowMax (fun k => v (ix2 p k)) := by
  refine (Ideal.multiReduction_maximumf_single v 0xFF800000#32 h hφ hacc (ix1 p)).trans ?_
  unfold Cert.Mlp.rowMax
  exact congrArg (fun f : Fin 3 → EReal => (Finset.univ : Finset (Fin 3)).fold max (Ideal.ofBits .f32 0xFF800000#32) f)
    (funext fun k => congrArg v (lift_eq h p k))

/-- The sum over the columns from zero, at row `p`, is the sum of the row's three entries. -/
theorem rowSum_at (v : FVec Ideal S4096x3 .f32) (h : S4096x3.Reduces [1] S4096) (hφ : FKind.Formats .f32)
    (hacc : (0x00000000#32 : BitVec 32) = FKind.add.neutral .f32 hφ) (p : Fin 4096) :
    multiReduction (F := Ideal) .add [1] S4096 v 0x00000000#32 h hφ hacc (ix1 p) = ∑ k : Fin 3, v (ix2 p k) := by
  refine (Ideal.multiReduction_add_single v 0x00000000#32 h hφ hacc (ix1 p)).trans ?_
  exact Finset.sum_congr rfl fun k _ => congrArg v (lift_eq h p k)

/-! ### The softmax over a row's three logits -/

/-- The body's last stage — subtract the row maximum, exponentiate, divide by the row sum — at entry `(p, g)` of
    any `4096 × 3` block of logits is the softmax of row `p` at `g`. -/
theorem softmax_at (v : FVec Ideal S4096x3 .f32) (h : S4096x3.Reduces [1] S4096) (hφ : FKind.Formats .f32)
    (hmax : (0xFF800000#32 : BitVec 32) = FKind.maximumf.neutral .f32 hφ)
    (hadd : (0x00000000#32 : BitVec 32) = FKind.add.neutral .f32 hφ)
    (hc : S4096.ShapeCasts S4096x1) (hb : S4096x1.Broadcasts S4096x3) (p : Fin 4096) (g : Fin 3) :
    divf (exp (subf v (broadcastTo S4096x3 (shapeCast S4096x1 (multiReduction (F := Ideal) .maximumf [1] S4096 v 0xFF800000#32 h hφ hmax) hc) hb)))
      (broadcastTo S4096x3 (shapeCast S4096x1 (multiReduction (F := Ideal) .add [1] S4096
        (exp (subf v (broadcastTo S4096x3 (shapeCast S4096x1 (multiReduction (F := Ideal) .maximumf [1] S4096 v 0xFF800000#32 h hφ hmax) hc) hb)))
        0x00000000#32 h hφ hadd) hc) hb) (ix2 p g)
      = Cert.Mlp.smax (fun k => v (ix2 p k)) g := by
  have he : ∀ k : Fin 3, exp (subf v (broadcastTo S4096x3 (shapeCast S4096x1
      (multiReduction (F := Ideal) .maximumf [1] S4096 v 0xFF800000#32 h hφ hmax) hc) hb)) (ix2 p k)
      = Ideal.exp (v (ix2 p k) - Cert.Mlp.rowMax (fun k => v (ix2 p k))) := fun k => by
    show Ideal.exp (v (ix2 p k) - broadcastTo S4096x3 (shapeCast S4096x1
      (multiReduction (F := Ideal) .maximumf [1] S4096 v 0xFF800000#32 h hφ hmax) hc) hb (ix2 p k)) = _
    rw [col_at, rowMax_at]
  rw [divf_apply, col_at, rowSum_at, he g]
  unfold Cert.Mlp.smax
  exact congrArg (Ideal.div _) (Finset.sum_congr rfl fun k _ => he k)

/-! ### The body's value at an entry -/

/-- A dense entry depends on its input row entry by entry. -/
theorem dense_congr {K : Nat} {x x' : Fin K → EReal} (w : Fin K → EReal) (b : EReal) (hx : ∀ k, x k = x' k) :
    Cert.Mlp.dense x w b = Cert.Mlp.dense x' w b := by
  rw [show x = x' from funext hx]

/-- The body's stored value at entry `(p, g)` of the output block is the kernel's row function of row `p` of the
    packed-input block and the weight blocks. -/
theorem block_apply (x0 : Vec Ideal S4096x10 .bf16) (x1 : Vec Ideal S10x256 .bf16) (x2 : Vec Ideal S256 .f32)
    (x3 : Vec Ideal S256x256 .bf16) (x4 : Vec Ideal S256 .f32) (x5 : Vec Ideal S256x128 .bf16) (x6 : Vec Ideal S128 .f32)
    (x7 : Vec Ideal S128x3 .bf16) (x8 : Vec Ideal S3 .f32) (p : Fin 4096) (g : Fin 3) :
    k0_pay1 (F := Ideal) (k0_pay2 (F := Ideal) x0 x1 x2 x3 x4 x5) (k0_pay3 (F := Ideal) x6) x7 x8 (ix2 p g)
      = Cert.Mlp.kOut (fun k => x0 (ix2 p k)) (fun k j => x1 (ix2 k j)) (fun j => x2 (ix1 j)) (fun k j => x3 (ix2 k j))
          (fun j => x4 (ix1 j)) (fun k j => x5 (ix2 k j)) (fun j => x6 (ix1 j)) (fun k g => x7 (ix2 k g)) (fun g => x8 (ix1 g)) g := by
  unfold k0_pay1 k0_pay2 k0_pay3
  dsimp only
  -- the softmax of the row's logits
  refine (softmax_at _ _ _ _ _ _ _ p g).trans ?_
  unfold Cert.Mlp.kOut
  refine congrArg (fun l : Fin 3 → EReal => Cert.Mlp.smax l g) (funext fun c => ?_)
  unfold Cert.Mlp.kLogits
  -- layer 4 over the activated layer 3
  refine (layer4_at _ x7 x8 _ _ _ _ _ p c).trans ?_
  refine dense_congr _ _ fun j3 => ?_
  refine (act_at _ (ix2 p j3)).trans (congrArg Cert.Mlp.actK ?_)
  -- layer 3 over the activated layer 2
  refine (layer3_at _ x5 x6 _ _ _ _ p j3).trans ?_
  refine dense_congr _ _ fun j2 => ?_
  refine (act_at _ (ix2 p j2)).trans (congrArg Cert.Mlp.actK ?_)
  -- layer 2 over the activated layer 1
  refine (layer2_at _ x3 x4 _ _ _ _ p j2).trans ?_
  refine dense_congr _ _ fun j1 => ?_
  refine (act_at _ (ix2 p j1)).trans (congrArg Cert.Mlp.actK ?_)
  -- layer 1 over the packed input row
  exact layer1_at x0 x1 x2 _ _ _ _ p j1

end Cert.KernelIdeal.Block

end
-- ==== Proof.KHost.lean ====
/-
  What the host operations before the launch leave in the arrays the launch stages, entry by entry, at the
  extended reals (where a change of float format is the identity):
  the packed input is the four narrow inputs side by side; the stacked first-layer weights are rows of `W1ᵀ`,
  the last six scaled by `δ` and `1-δ`; the second and third weights are transposes; the fourth is `β·W4`
  transposed and the last bias is `β·b4`.
-/
import proofs.«406189_j49297634623652_3_alg».proof.Proof.KEntry
import proofs.«406189_j49297634623652_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Host

open Idealize.ShloMosaic Idealize.ShloMosaic.TcCoe Idealize.ShloMosaic.ValueIdx Idealize.SL.Sem
open Cert.KernelIdeal Cert.KernelIdeal.Gen Cert.KernelIdeal.Frame

variable (m : (ℓ : Loc nD τ sig) → Buf (Elt Ideal) ℓ) (c : Dev nD)

section Pack
variable {α : Type} (x0 : S262144x3.Idx → α) (x1 : S262144x1.Idx → α) (x2 x3 : S262144x3.Idx → α)

/-- The four narrow inputs side by side: columns 0–2 are the first input's. -/
theorem pack_cols_p (r : Fin 262144) (q : Fin 3) (k : Fin 10) (hk : k.val = q.val) :
    concatenate S262144x10 1 [⟨S262144x3, x0⟩, ⟨S262144x1, x1⟩, ⟨S262144x3, x2⟩, ⟨S262144x3, x3⟩]
      concatenates_S262144x3_S262144x1_S262144x3_S262144x3_S262144x10_d1 (ix2 r k) = x0 (ix2 r q) :=
  concatenate_apply_piece (1 : Fin S262144x10.rank) _ _ (ix2 r k) 0 (by simp) S262144x3 x0 rfl rfl 0 rfl (ix2 r q)
    (fun b hne => match b, hne with
      | ⟨0, _⟩, _ => rfl
      | ⟨1, _⟩, hne => absurd (Fin.ext rfl) hne)
    (by show 0 + q.val = k.val; omega)

/-- Column 3 is the second input's one column. -/
theorem pack_col_y (r : Fin 262144) (k : Fin 10) (hk : k.val = 3) :
    concatenate S262144x10 1 [⟨S262144x3, x0⟩, ⟨S262144x1, x1⟩, ⟨S262144x3, x2⟩, ⟨S262144x3, x3⟩]
      concatenates_S262144x3_S262144x1_S262144x3_S262144x3_S262144x10_d1 (ix2 r k) = x1 (ix2 r 0) :=
  concatenate_apply_piece (1 : Fin S262144x10.rank) _ _ (ix2 r k) 1 (by simp) S262144x1 x1 rfl rfl 3 rfl (ix2 r 0)
    (fun b hne => match b, hne with
      | ⟨0, _⟩, _ => rfl
      | ⟨1, _⟩, hne => absurd (Fin.ext rfl) hne)
    (by show 3 + 0 = k.val; omega)

/-- Columns 4–6 are the third input's. -/
theorem pack_cols_xb (r : Fin 262144) (q : Fin 3) (k : Fin 10) (hk : k.val = 4 + q.val) :
    concatenate S262144x10 1 [⟨S262144x3, x0⟩, ⟨S262144x1, x1⟩, ⟨S262144x3, x2⟩, ⟨S262144x3, x3⟩]
      concatenates_S262144x3_S262144x1_S262144x3_S262144x3_S262144x10_d1 (ix2 r k) = x2 (ix2 r q) :=
  concatenate_apply_piece (1 : Fin S262144x10.rank) _ _ (ix2 r k) 2 (by simp) S262144x3 x2 rfl rfl 4 rfl (ix2 r q)
    (fun b hne => match b, hne with
      | ⟨0, _⟩, _ => rfl
      | ⟨1, _⟩, hne => absurd (Fin.ext rfl) hne)
    (by show 4 + q.val = k.val; omega)

/-- Columns 7–9 are the fourth input's. -/
theorem pack_cols_q (r : Fin 262144) (q : Fin 3) (k : Fin 10) (hk : k.val = 7 + q.val) :
    concatenate S262144x10 1 [⟨S262144x3, x0⟩, ⟨S262144x1, x1⟩, ⟨S262144x3, x2⟩, ⟨S262144x3, x3⟩]
      concatenates_S262144x3_S262144x1_S262144x3_S262144x3_S262144x10_d1 (ix2 r k) = x3 (ix2 r q) :=
  concatenate_apply_piece (1 : Fin S262144x10.rank) _ _ (ix2 r k) 3 (by simp) S262144x3 x3 rfl rfl 7 rfl (ix2 r q)
    (fun b hne => match b, hne with
      | ⟨0, _⟩, _ => rfl
      | ⟨1, _⟩, hne => absurd (Fin.ext rfl) hne)
    (by show 7 + q.val = k.val; omega)
end Pack

section Stack
variable {α : Type} (y0 : S3x256.Idx → α) (y1 : S1x256.Idx → α) (y2 y3 : S3x256.Idx → α)

/-- Four blocks of rows stacked: rows 0–2 are the first block's. -/
theorem stack_rows_a (q : Fin 3) (j : Fin 256) (k : Fin 10) (hk : k.val = q.val) :
    concatenate S10x256 0 [⟨S3x256, y0⟩, ⟨S1x256, y1⟩, ⟨S3x256, y2⟩, ⟨S3x256, y3⟩]
      concatenates_S3x256_S1x256_S3x256_S3x256_S10x256_d0 (ix2 k j) = y0 (ix2 q j) :=
  concatenate_apply_piece (0 : Fin S10x256.rank) _ _ (ix2 k j) 0 (by simp) S3x256 y0 rfl rfl 0 rfl (ix2 q j)
    (fun b hne => match b, hne with
      | ⟨0, _⟩, hne => absurd (Fin.ext rfl) hne
      | ⟨1, _⟩, _ => rfl)
    (by show 0 + q.val = k.val; omega)

/-- Row 3 is the second block's one row. -/
theorem stack_row_b (j : Fin 256) (k : Fin 10) (hk : k.val = 3) :
    concatenate S10x256 0 [⟨S3x256, y0⟩, ⟨S1x256, y1⟩, ⟨S3x256, y2⟩, ⟨S3x256, y3⟩]
      concatenates_S3x256_S1x256_S3x256_S3x256_S10x256_d0 (ix2 k j) = y1 (ix2 0 j) :=
  concatenate_apply_piece (0 : Fin S10x256.rank) _ _ (ix2 k j) 1 (by simp) S1x256 y1 rfl rfl 3 rfl (ix2 0 j)
    (fun b hne => match b, hne with
      | ⟨0, _⟩, hne => absurd (Fin.ext rfl) hne
      | ⟨1, _⟩, _ => rfl)
    (by show 3 + 0 = k.val; omega)

/-- Rows 4–6 are the third block's. -/
theorem stack_rows_c (q : Fin 3) (j : Fin 256) (k : Fin 10) (hk : k.val = 4 + q.val) :
    concatenate S10x256 0 [⟨S3x256, y0⟩, ⟨S1x256, y1⟩, ⟨S3x256, y2⟩, ⟨S3x256, y3⟩]
      concatenates_S3x256_S1x256_S3x256_S3x256_S10x256_d0 (ix2 k j) = y2 (ix2 q j) :=
  concatenate_apply_piece (0 : Fin S10x256.rank) _ _ (ix2 k j) 2 (by simp) S3x256 y2 rfl rfl 4 rfl (ix2 q j)
    (fun b hne => match b, hne with
      | ⟨0, _⟩, hne => absurd (Fin.ext rfl) hne
      | ⟨1, _⟩, _ => rfl)
    (by show 4 + q.val = k.val; omega)

/-- Rows 7–9 are the fourth block's. -/
theorem stack_rows_d (q : Fin 3) (j : Fin 256) (k : Fin 10) (hk : k.val = 7 + q.val) :
    concatenate S10x256 0 [⟨S3x256, y0⟩, ⟨S1x256, y1⟩, ⟨S3x256, y2⟩, ⟨S3x256, y3⟩]
      concatenates_S3x256_S1x256_S3x256_S3x256_S10x256_d0 (ix2 k j) = y3 (ix2 q j) :=
  concatenate_apply_piece (0 : Fin S10x256.rank) _ _ (ix2 k j) 3 (by simp) S3x256 y3 rfl rfl 7 rfl (ix2 q j)
    (fun b hne => match b, hne with
      | ⟨0, _⟩, hne => absurd (Fin.ext rfl) hne
      | ⟨1, _⟩, _ => rfl)
    (by show 7 + q.val = k.val; omega)
end Stack

section Rows
variable (W : S256x7.Idx → EReal)

/-- `W1ᵀ` at row `p`, column `j` is `W1` at `(j, p)`. -/
theorem w1T_apply (p : Fin 7) (j : Fin 256) :
    transpose S7x256 [1, 0] W transposes_S256x7_S7x256_1_0 (ix2 p j) = W (ix2 j p) :=
  transpose_apply [1, 0] W transposes_S256x7_S7x256_1_0 (ix2 p j) (ix2 j p) (fun b => match b with
    | ⟨0, _⟩ => rfl
    | ⟨1, _⟩ => rfl)

/-- Rows 0–2 of `W1ᵀ`. -/
theorem rows_head (q : Fin 3) (j : Fin 256) (p : Fin 7) (hp : p.val = q.val) :
    extractStridedSlice S3x256 ![0, 0] (transpose S7x256 [1, 0] W transposes_S256x7_S7x256_1_0) slices_S7x256_S3x256_0_0 (ix2 q j) = W (ix2 j p) :=
  (extractStridedSlice_apply ![0, 0] _ slices_S7x256_S3x256_0_0 (ix2 q j) (ix2 p j) (fun a => match a with
    | ⟨0, _⟩ => by show p.val = 0 + q.val; omega
    | ⟨1, _⟩ => by show j.val = 0 + j.val; omega)).trans (w1T_apply W p j)

/-- Row 3 of `W1ᵀ`. -/
theorem row_mid (j : Fin 256) :
    extractStridedSlice S1x256 ![3, 0] (transpose S7x256 [1, 0] W transposes_S256x7_S7x256_1_0) slices_S7x256_S1x256_3_0 (ix2 0 j) = W (ix2 j 3) :=
  (extractStridedSlice_apply ![3, 0] _ slices_S7x256_S1x256_3_0 (ix2 0 j) (ix2 3 j) (fun a => match a with
    | ⟨0, _⟩ => rfl
    | ⟨1, _⟩ => by show j.val = 0 + j.val; omega)).trans (w1T_apply W 3 j)

/-- Rows 4–6 of `W1ᵀ`, scaled by a broadcast scalar `s`: `s · W1[j, 4+q]`. -/
theorem rows_tail_scaled (s : FVec Ideal S_ .f32) (q : Fin 3) (j : Fin 256) (p : Fin 7) (hp : p.val = 4 + q.val) :
    mulf (F := Ideal) (broadcastInDim S3x256 ![] bcast_S_S3x256 s)
      (extractStridedSlice S3x256 ![4, 0] (transpose S7x256 [1, 0] W transposes_S256x7_S7x256_1_0) slices_S7x256_S3x256_4_0) (ix2 q j)
      = s ix0 * W (ix2 j p) := by
  show (broadcastInDim S3x256 ![] bcast_S_S3x256 s (ix2 q j) : EReal)
      * extractStridedSlice S3x256 ![4, 0] (transpose S7x256 [1, 0] W transposes_S256x7_S7x256_1_0) slices_S7x256_S3x256_4_0 (ix2 q j) = _
  rw [broadcastInDim_apply _ bcast_S_S3x256 s (ix2 q j) ix0 (fun a => a.elim0),
    extractStridedSlice_apply ![4, 0] _ slices_S7x256_S3x256_4_0 (ix2 q j) (ix2 p j) (fun a => match a with
      | ⟨0, _⟩ => by show p.val = 4 + q.val; omega
      | ⟨1, _⟩ => by show j.val = 0 + j.val; omega),
    w1T_apply W p j]
end Rows

/-- The scalar β as the host operations compute it: 20 ⊓ (½ ⊔ e^{log β}). -/
abbrev betaV : FVec Ideal S_ .f32 :=
  minimumf (F := Ideal) (id (constant (F := Ideal) S_ .f32 0x41A00000#32))
    (maximumf (F := Ideal) (id (constant (F := Ideal) S_ .f32 0x3F000000#32)) (Host.exp (F := Ideal) (m ((c.tc : Thread nD τ).loc main_arg12))))

/-- β read at the scalar's one index is the specification's β of the stored logarithm. -/
theorem betaV_apply : betaV m c ix0 = Cert.Mlp.beta ((m ((c.tc : Thread nD τ).loc main_arg12)) ix0) := rfl

/-- The scalar δ as the host operations compute it: 1 / (1 + e^{-log δ}). -/
abbrev deltaV : FVec Ideal S_ .f32 :=
  Host.divf (F := Ideal) (constant (F := Ideal) S_ .f32 0x3F800000#32)
    (addf (F := Ideal) (constant (F := Ideal) S_ .f32 0x3F800000#32)
      (Host.exp (F := Ideal) (Host.negf (F := Ideal) (m ((c.tc : Thread nD τ).loc main_arg13)))))

/-- δ read at the scalar's one index is the specification's δ of the stored logarithm. -/
theorem deltaV_apply : deltaV m c ix0 = Cert.Mlp.delta ((m ((c.tc : Thread nD τ).loc main_arg13)) ix0) := rfl

/-- `W1ᵀ`, the transpose of argument 4. -/
abbrev w1T : S7x256.Idx → EReal :=
  transpose S7x256 [1, 0] (m ((c.tc : Thread nD τ).loc main_arg4)) transposes_S256x7_S7x256_1_0

/-- The array staged as the first layer's weights: rows 0–2 and row 3 of `W1ᵀ`, then its rows 4–6 scaled by δ, then
    the same rows scaled by 1-δ, stacked. -/
theorem V_v16_term :
    (V m c main_v16 : S10x256.Idx → EReal) = truncf (F := Ideal) .bf16
      (concatenate S10x256 0
        [⟨S3x256, extractStridedSlice S3x256 ![0, 0] (w1T m c) slices_S7x256_S3x256_0_0⟩,
         ⟨S1x256, extractStridedSlice S1x256 ![3, 0] (w1T m c) slices_S7x256_S1x256_3_0⟩,
         ⟨S3x256, mulf (F := Ideal) (broadcastInDim S3x256 ![] bcast_S_S3x256 (deltaV m c))
            (extractStridedSlice S3x256 ![4, 0] (w1T m c) slices_S7x256_S3x256_4_0)⟩,
         ⟨S3x256, mulf (F := Ideal) (broadcastInDim S3x256 ![] bcast_S_S3x256
              (subf (F := Ideal) (constant (F := Ideal) S_ .f32 0x3F800000#32) (deltaV m c)))
            (extractStridedSlice S3x256 ![4, 0] (w1T m c) slices_S7x256_S3x256_4_0)⟩]
        concatenates_S3x256_S1x256_S3x256_S3x256_S10x256_d0) bitsLt_bf16_f32 := by
  dsimp only [Frame.V]
  simp only [hostOps0, hostOps0_1, hostOps0_2, List.flatten_cons, List.flatten_nil, List.append_nil, List.cons_append, List.nil_append]
  after_results_simp
  rfl

/-- The array staged as the packed input is the four narrow inputs joined along the columns. -/
theorem V_v28_term :
    (V m c main_v28 : S262144x10.Idx → EReal) = truncf (F := Ideal) .bf16
      (concatenate S262144x10 1 [⟨S262144x3, m ((c.tc : Thread nD τ).loc main_arg0)⟩, ⟨S262144x1, m ((c.tc : Thread nD τ).loc main_arg1)⟩,
        ⟨S262144x3, m ((c.tc : Thread nD τ).loc main_arg2)⟩, ⟨S262144x3, m ((c.tc : Thread nD τ).loc main_arg3)⟩]
        concatenates_S262144x3_S262144x1_S262144x3_S262144x3_S262144x10_d1) bitsLt_bf16_f32 := by
  dsimp only [Frame.V]
  simp only [hostOps0, hostOps0_1, hostOps0_2, List.flatten_cons, List.flatten_nil, List.append_nil, List.cons_append, List.nil_append]
  after_results_simp
  rfl
/-- The array staged as the second layer's weights is the transpose of argument 6 (the format change aside). -/
theorem V_v18_term :
    (V m c main_v18 : S256x256.Idx → EReal) = truncf (F := Ideal) .bf16 (transpose S256x256 [1, 0] (m ((c.tc : Thread nD τ).loc main_arg6)) transposes_S256x256_S256x256_1_0) bitsLt_bf16_f32 := by
  dsimp only [Frame.V]
  simp only [hostOps0, hostOps0_1, hostOps0_2, List.flatten_cons, List.flatten_nil, List.append_nil, List.cons_append, List.nil_append]
  after_results_simp

/-- The array staged as the third layer's weights is the transpose of argument 8. -/
theorem V_v20_term :
    (V m c main_v20 : S256x128.Idx → EReal) = truncf (F := Ideal) .bf16 (transpose S256x128 [1, 0] (m ((c.tc : Thread nD τ).loc main_arg8)) transposes_S128x256_S256x128_1_0) bitsLt_bf16_f32 := by
  dsimp only [Frame.V]
  simp only [hostOps0, hostOps0_1, hostOps0_2, List.flatten_cons, List.flatten_nil, List.append_nil, List.cons_append, List.nil_append]
  after_results_simp

/-- The array staged as the fourth layer's weights is the transpose of β (broadcast) times argument 10. -/
theorem V_v24_term :
    (V m c main_v24 : S128x3.Idx → EReal) = truncf (F := Ideal) .bf16 (transpose S128x3 [1, 0]
      (mulf (F := Ideal) (broadcastInDim S3x128 ![] bcast_S_S3x128 (betaV m c)) (m ((c.tc : Thread nD τ).loc main_arg10)))
      transposes_S3x128_S128x3_1_0) bitsLt_bf16_f32 := by
  dsimp only [Frame.V]
  simp only [hostOps0, hostOps0_1, hostOps0_2, List.flatten_cons, List.flatten_nil, List.append_nil, List.cons_append, List.nil_append]
  after_results_simp
  rfl

/-- The array staged as the last bias is β (broadcast) times argument 11. -/
theorem V_v26_term :
    (V m c main_v26 : S3.Idx → EReal) = mulf (F := Ideal) (broadcastInDim S3 ![] bcast_S_S3 (betaV m c)) (m ((c.tc : Thread nD τ).loc main_arg11)) := by
  dsimp only [Frame.V]
  simp only [hostOps0, hostOps0_1, hostOps0_2, List.flatten_cons, List.flatten_nil, List.append_nil, List.cons_append, List.nil_append]
  after_results_simp
  rfl

/-- The packed input at row `r`, column `k`: the four narrow inputs of row `r` side by side. -/
theorem V_v28_apply (r : Fin 262144) (k : Fin 10) :
    (V m c main_v28 : S262144x10.Idx → EReal) (ix2 r k)
      = Cert.Mlp.xcat (fun k => (m ((c.tc : Thread nD τ).loc main_arg0)) (ix2 r k)) ((m ((c.tc : Thread nD τ).loc main_arg1)) (ix2 r 0)) (fun k => (m ((c.tc : Thread nD τ).loc main_arg2)) (ix2 r k)) (fun k => (m ((c.tc : Thread nD τ).loc main_arg3)) (ix2 r k)) k := by
  rw [V_v28_term]
  show concatenate S262144x10 1 [⟨S262144x3, m ((c.tc : Thread nD τ).loc main_arg0)⟩, ⟨S262144x1, m ((c.tc : Thread nD τ).loc main_arg1)⟩,
        ⟨S262144x3, m ((c.tc : Thread nD τ).loc main_arg2)⟩, ⟨S262144x3, m ((c.tc : Thread nD τ).loc main_arg3)⟩]
        concatenates_S262144x3_S262144x1_S262144x3_S262144x3_S262144x10_d1 (ix2 r k) = _
  match k with
  | ⟨0, _⟩ => exact pack_cols_p _ _ _ _ r 0 _ rfl
  | ⟨1, _⟩ => exact pack_cols_p _ _ _ _ r 1 _ rfl
  | ⟨2, _⟩ => exact pack_cols_p _ _ _ _ r 2 _ rfl
  | ⟨3, _⟩ => exact pack_col_y _ _ _ _ r _ rfl
  | ⟨4, _⟩ => exact pack_cols_xb _ _ _ _ r 0 _ rfl
  | ⟨5, _⟩ => exact pack_cols_xb _ _ _ _ r 1 _ rfl
  | ⟨6, _⟩ => exact pack_cols_xb _ _ _ _ r 2 _ rfl
  | ⟨7, _⟩ => exact pack_cols_q _ _ _ _ r 0 _ rfl
  | ⟨8, _⟩ => exact pack_cols_q _ _ _ _ r 1 _ rfl
  | ⟨9, _⟩ => exact pack_cols_q _ _ _ _ r 2 _ rfl

/-- The stacked first-layer weights. -/
theorem V_v16_apply (k : Fin 10) (j : Fin 256) :
    (V m c main_v16 : S10x256.Idx → EReal) (ix2 k j) = Cert.Mlp.w1s (fun j k => (m ((c.tc : Thread nD τ).loc main_arg4)) (ix2 j k)) ((m ((c.tc : Thread nD τ).loc main_arg13)) ix0) k j := by
  rw [V_v16_term]
  show concatenate S10x256 0
        [⟨S3x256, extractStridedSlice S3x256 ![0, 0] (w1T m c) slices_S7x256_S3x256_0_0⟩,
         ⟨S1x256, extractStridedSlice S1x256 ![3, 0] (w1T m c) slices_S7x256_S1x256_3_0⟩,
         ⟨S3x256, mulf (F := Ideal) (broadcastInDim S3x256 ![] bcast_S_S3x256 (deltaV m c))
            (extractStridedSlice S3x256 ![4, 0] (w1T m c) slices_S7x256_S3x256_4_0)⟩,
         ⟨S3x256, mulf (F := Ideal) (broadcastInDim S3x256 ![] bcast_S_S3x256
              (subf (F := Ideal) (constant (F := Ideal) S_ .f32 0x3F800000#32) (deltaV m c)))
            (extractStridedSlice S3x256 ![4, 0] (w1T m c) slices_S7x256_S3x256_4_0)⟩]
        concatenates_S3x256_S1x256_S3x256_S3x256_S10x256_d0 (ix2 k j) = _
  match k with
  | ⟨0, _⟩ => exact (stack_rows_a _ _ _ _ 0 j _ rfl).trans (rows_head _ 0 j 0 rfl)
  | ⟨1, _⟩ => exact (stack_rows_a _ _ _ _ 1 j _ rfl).trans (rows_head _ 1 j 1 rfl)
  | ⟨2, _⟩ => exact (stack_rows_a _ _ _ _ 2 j _ rfl).trans (rows_head _ 2 j 2 rfl)
  | ⟨3, _⟩ => exact (stack_row_b _ _ _ _ j _ rfl).trans (row_mid _ j)
  | ⟨4, _⟩ => exact (stack_rows_c _ _ _ _ 0 j _ rfl).trans (rows_tail_scaled _ _ 0 j 4 rfl)
  | ⟨5, _⟩ => exact (stack_rows_c _ _ _ _ 1 j _ rfl).trans (rows_tail_scaled _ _ 1 j 5 rfl)
  | ⟨6, _⟩ => exact (stack_rows_c _ _ _ _ 2 j _ rfl).trans (rows_tail_scaled _ _ 2 j 6 rfl)
  | ⟨7, _⟩ => exact (stack_rows_d _ _ _ _ 0 j _ rfl).trans (rows_tail_scaled _ _ 0 j 4 rfl)
  | ⟨8, _⟩ => exact (stack_rows_d _ _ _ _ 1 j _ rfl).trans (rows_tail_scaled _ _ 1 j 5 rfl)
  | ⟨9, _⟩ => exact (stack_rows_d _ _ _ _ 2 j _ rfl).trans (rows_tail_scaled _ _ 2 j 6 rfl)

/-- The second layer's weights, transposed. -/
theorem V_v18_apply (k j : Fin 256) : (V m c main_v18 : S256x256.Idx → EReal) (ix2 k j) = (m ((c.tc : Thread nD τ).loc main_arg6)) (ix2 j k) := by
  rw [V_v18_term]
  exact transpose_apply [1, 0] (m ((c.tc : Thread nD τ).loc main_arg6)) transposes_S256x256_S256x256_1_0 (ix2 k j) (ix2 j k) (fun b => match b with
    | ⟨0, _⟩ => rfl
    | ⟨1, _⟩ => rfl)

/-- The third layer's weights, transposed. -/
theorem V_v20_apply (k : Fin 256) (j : Fin 128) : (V m c main_v20 : S256x128.Idx → EReal) (ix2 k j) = (m ((c.tc : Thread nD τ).loc main_arg8)) (ix2 j k) := by
  rw [V_v20_term]
  exact transpose_apply [1, 0] (m ((c.tc : Thread nD τ).loc main_arg8)) transposes_S128x256_S256x128_1_0 (ix2 k j) (ix2 j k) (fun b => match b with
    | ⟨0, _⟩ => rfl
    | ⟨1, _⟩ => rfl)

/-- The fourth layer's weights: `β·W4`, transposed. -/
theorem V_v24_apply (k : Fin 128) (g : Fin 3) :
    (V m c main_v24 : S128x3.Idx → EReal) (ix2 k g) = Cert.Mlp.beta ((m ((c.tc : Thread nD τ).loc main_arg12)) ix0) * (m ((c.tc : Thread nD τ).loc main_arg10)) (ix2 g k) := by
  rw [V_v24_term, ← betaV_apply]
  refine (transpose_apply [1, 0] (mulf (F := Ideal) (broadcastInDim S3x128 ![] bcast_S_S3x128 (betaV m c)) (m ((c.tc : Thread nD τ).loc main_arg10)))
    transposes_S3x128_S128x3_1_0 (ix2 k g) (ix2 g k) (fun b => match b with
    | ⟨0, _⟩ => rfl
    | ⟨1, _⟩ => rfl)).trans ?_
  show (broadcastInDim S3x128 ![] bcast_S_S3x128 (betaV m c) (ix2 g k) : EReal) * _ = _
  rw [broadcastInDim_apply _ bcast_S_S3x128 (betaV m c) (ix2 g k) ix0 (fun a => a.elim0)]

/-- The fourth layer's bias: `β·b4`. -/
theorem V_v26_apply (g : Fin 3) :
    (V m c main_v26 : S3.Idx → EReal) (ix1 g) = Cert.Mlp.beta ((m ((c.tc : Thread nD τ).loc main_arg12)) ix0) * (m ((c.tc : Thread nD τ).loc main_arg11)) (ix1 g) := by
  rw [V_v26_term, ← betaV_apply]
  show (broadcastInDim S3 ![] bcast_S_S3 (betaV m c) (ix1 g) : EReal) * _ = _
  rw [broadcastInDim_apply _ bcast_S_S3 (betaV m c) (ix1 g) ix0 (fun a => a.elim0)]

end Cert.KernelIdeal.Host

end
-- ==== Proof.KValue.lean ====
/-
  The kernel's result array after the run, as one function of the argument arrays.

  Point `t` of the grid writes back the body's value on rows `4096·t … 4096·t+4095`: entry `(p, g)` of that
  block is the kernel's row function of row `4096·t+p` of the packed input and of the weight arrays, which are
  the same at every point.  So what point `t` writes back is block `t` of ONE whole-array function `Gv`: at
  `(r, g)` the row function of row `r`.  The 64 blocks tile the 262144 rows (row `r` lies in block `r / 4096`),
  hence the array ends as `Gv`.  Folding in what the host operations put into the staged arrays, `Gv` at
  `(r, g)` is `Cert.Mlp.kFinal` of row `r` of the original arguments.
-/
import proofs.«406189_j49297634623652_3_alg».proof.Proof.KFrame
import proofs.«406189_j49297634623652_3_alg».proof.Proof.KBlock
import proofs.«406189_j49297634623652_3_alg».proof.Proof.KHost
import proofs.«406189_j49297634623652_3_alg».proof.Proof.Spec
import Idealize.ShloMosaic.Lib.ValueIdx
import Idealize.ShloMosaic.Lib.Pipeline.Value

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-- The kernel's row function of row `R` of the staged arrays, as the launch finds them. -/
def rowOf (c : Dev nD) (R : Fin 262144) (g : Fin 3) : EReal :=
  Cert.Mlp.kOut (fun k => (V m c main_v28 : S262144x10.Idx → EReal) (ix2 R k)) (fun k j => (V m c main_v16 : S10x256.Idx → EReal) (ix2 k j))
      (fun j => (V m c main_arg5 : S256.Idx → EReal) (ix1 j)) (fun k j => (V m c main_v18 : S256x256.Idx → EReal) (ix2 k j))
      (fun j => (V m c main_arg7 : S256.Idx → EReal) (ix1 j)) (fun k j => (V m c main_v20 : S256x128.Idx → EReal) (ix2 k j))
      (fun j => (V m c main_arg9 : S128.Idx → EReal) (ix1 j)) (fun k g => (V m c main_v24 : S128x3.Idx → EReal) (ix2 k g))
      (fun g => (V m c main_v26 : S3.Idx → EReal) (ix1 g)) g

/-- The whole result array: at `(r, g)` the row function of row `r`. -/
def Gv (c : Dev nD) : S262144x3.Idx → EReal := fun i => rowOf m c (i 0) (i 1)

/-- The printed index maps over the grid: the packed input and the result move together along the rows and sit at
    column block 0; every weight and bias window sits at block 0. -/
theorem idx_facts : ∀ t : Fin cfg0.N, win0_0.index t (0 : Fin 2) = win0_9.index t (0 : Fin 2)
    ∧ win0_0.index t (1 : Fin 2) = 0 ∧ win0_9.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) ≤ 63 :=
  (by decide +kernel : ∀ t : Fin grid0.N, _)

/-- Every block of rows is some point's. -/
theorem idx_onto : ∀ q0 : Fin 64, ∃ t : Fin cfg0.N, win0_9.index t = ![q0.val, 0] :=
  (by decide +kernel : ∀ q0 : Fin 64, ∃ t : Fin grid0.N, win0_9.index t = ![q0.val, 0])

/-- The row of the arrays that entry `p` of point `t`'s block is. -/
theorem rowAt_lt (t : Fin cfg0.N) (p : Fin 4096) : win0_9.index t (0 : Fin 2) * 4096 + p.val < 262144 := by
  obtain ⟨e0, e1, e2, e3, e4, e5, e6, e7, e8, e9, e10, e11, e12, e13, e14, e15⟩ := idx_facts t
  have := p.isLt; omega

/-- Row `p` of the packed input's block at point `t` is row `4096·t + p` of the array. -/
theorem iblk0_apply (c : Dev nD) (t : Fin cfg0.N) (p : Fin 4096) (k : Fin 10) :
    iblk m c 0 t (ix2 p k) = (V m c main_v28 : S262144x10.Idx → EReal) (ix2 (⟨win0_9.index t (0 : Fin 2) * 4096 + p.val, rowAt_lt t p⟩ : Fin 262144) k) := by
  obtain ⟨e0, e1, e2, e3, e4, e5, e6, e7, e8, e9, e10, e11, e12, e13, e14, e15⟩ := idx_facts t
  show V m c main_v28 (((cfg0.win 0).blk t).view.emb (ix2 p k)) = V m c main_v28 (ix2 _ k)
  refine congrArg _ (funext fun a => Fin.ext ?_)
  match a with
  | ⟨0, _⟩ => show win0_0.index t (0 : Fin 2) * 4096 + 1 * p.val = win0_9.index t (0 : Fin 2) * 4096 + p.val; omega
  | ⟨1, _⟩ => show win0_0.index t (1 : Fin 2) * 10 + 1 * k.val = k.val; omega

/-- Window 1 sits at block 0 at every point: its block is the array. -/
theorem iblk1_apply (c : Dev nD) (t : Fin cfg0.N) (k : Fin 10) (j : Fin 256) :
    iblk m c 1 t (ix2 k j) = (V m c main_v16 : S10x256.Idx → EReal) (ix2 k j) := by
  obtain ⟨e0, e1, e2, e3, e4, e5, e6, e7, e8, e9, e10, e11, e12, e13, e14, e15⟩ := idx_facts t
  show V m c main_v16 (((cfg0.win 1).blk t).view.emb (ix2 k j)) = V m c main_v16 (ix2 k j)
  refine congrArg _ (funext fun a => Fin.ext ?_)
  match a with
  | ⟨0, _⟩ => show win0_1.index t (0 : Fin 2) * 10 + 1 * k.val = k.val; omega
  | ⟨1, _⟩ => show win0_1.index t (1 : Fin 2) * 256 + 1 * j.val = j.val; omega

/-- Window 2 sits at block 0 at every point: its block is the array. -/
theorem iblk2_apply (c : Dev nD) (t : Fin cfg0.N) (j : Fin 256) :
    iblk m c 2 t (ix1 j) = (V m c main_arg5 : S256.Idx → EReal) (ix1 j) := by
  obtain ⟨e0, e1, e2, e3, e4, e5, e6, e7, e8, e9, e10, e11, e12, e13, e14, e15⟩ := idx_facts t
  show V m c main_arg5 (((cfg0.win 2).blk t).view.emb (ix1 j)) = V m c main_arg5 (ix1 j)
  refine congrArg _ (funext fun a => Fin.ext ?_)
  match a with
  | ⟨0, _⟩ => show win0_2.index t (0 : Fin 1) * 256 + 1 * j.val = j.val; omega

/-- Window 3 sits at block 0 at every point: its block is the array. -/
theorem iblk3_apply (c : Dev nD) (t : Fin cfg0.N) (k : Fin 256) (j : Fin 256) :
    iblk m c 3 t (ix2 k j) = (V m c main_v18 : S256x256.Idx → EReal) (ix2 k j) := by
  obtain ⟨e0, e1, e2, e3, e4, e5, e6, e7, e8, e9, e10, e11, e12, e13, e14, e15⟩ := idx_facts t
  show V m c main_v18 (((cfg0.win 3).blk t).view.emb (ix2 k j)) = V m c main_v18 (ix2 k j)
  refine congrArg _ (funext fun a => Fin.ext ?_)
  match a with
  | ⟨0, _⟩ => show win0_3.index t (0 : Fin 2) * 256 + 1 * k.val = k.val; omega
  | ⟨1, _⟩ => show win0_3.index t (1 : Fin 2) * 256 + 1 * j.val = j.val; omega

/-- Window 4 sits at block 0 at every point: its block is the array. -/
theorem iblk4_apply (c : Dev nD) (t : Fin cfg0.N) (j : Fin 256) :
    iblk m c 4 t (ix1 j) = (V m c main_arg7 : S256.Idx → EReal) (ix1 j) := by
  obtain ⟨e0, e1, e2, e3, e4, e5, e6, e7, e8, e9, e10, e11, e12, e13, e14, e15⟩ := idx_facts t
  show V m c main_arg7 (((cfg0.win 4).blk t).view.emb (ix1 j)) = V m c main_arg7 (ix1 j)
  refine congrArg _ (funext fun a => Fin.ext ?_)
  match a with
  | ⟨0, _⟩ => show win0_4.index t (0 : Fin 1) * 256 + 1 * j.val = j.val; omega

/-- Window 5 sits at block 0 at every point: its block is the array. -/
theorem iblk5_apply (c : Dev nD) (t : Fin cfg0.N) (k : Fin 256) (j : Fin 128) :
    iblk m c 5 t (ix2 k j) = (V m c main_v20 : S256x128.Idx → EReal) (ix2 k j) := by
  obtain ⟨e0, e1, e2, e3, e4, e5, e6, e7, e8, e9, e10, e11, e12, e13, e14, e15⟩ := idx_facts t
  show V m c main_v20 (((cfg0.win 5).blk t).view.emb (ix2 k j)) = V m c main_v20 (ix2 k j)
  refine congrArg _ (funext fun a => Fin.ext ?_)
  match a with
  | ⟨0, _⟩ => show win0_5.index t (0 : Fin 2) * 256 + 1 * k.val = k.val; omega
  | ⟨1, _⟩ => show win0_5.index t (1 : Fin 2) * 128 + 1 * j.val = j.val; omega

/-- Window 6 sits at block 0 at every point: its block is the array. -/
theorem iblk6_apply (c : Dev nD) (t : Fin cfg0.N) (j : Fin 128) :
    iblk m c 6 t (ix1 j) = (V m c main_arg9 : S128.Idx → EReal) (ix1 j) := by
  obtain ⟨e0, e1, e2, e3, e4, e5, e6, e7, e8, e9, e10, e11, e12, e13, e14, e15⟩ := idx_facts t
  show V m c main_arg9 (((cfg0.win 6).blk t).view.emb (ix1 j)) = V m c main_arg9 (ix1 j)
  refine congrArg _ (funext fun a => Fin.ext ?_)
  match a with
  | ⟨0, _⟩ => show win0_6.index t (0 : Fin 1) * 128 + 1 * j.val = j.val; omega

/-- Window 7 sits at block 0 at every point: its block is the array. -/
theorem iblk7_apply (c : Dev nD) (t : Fin cfg0.N) (k : Fin 128) (j : Fin 3) :
    iblk m c 7 t (ix2 k j) = (V m c main_v24 : S128x3.Idx → EReal) (ix2 k j) := by
  obtain ⟨e0, e1, e2, e3, e4, e5, e6, e7, e8, e9, e10, e11, e12, e13, e14, e15⟩ := idx_facts t
  show V m c main_v24 (((cfg0.win 7).blk t).view.emb (ix2 k j)) = V m c main_v24 (ix2 k j)
  refine congrArg _ (funext fun a => Fin.ext ?_)
  match a with
  | ⟨0, _⟩ => show win0_7.index t (0 : Fin 2) * 128 + 1 * k.val = k.val; omega
  | ⟨1, _⟩ => show win0_7.index t (1 : Fin 2) * 3 + 1 * j.val = j.val; omega

/-- Window 8 sits at block 0 at every point: its block is the array. -/
theorem iblk8_apply (c : Dev nD) (t : Fin cfg0.N) (j : Fin 3) :
    iblk m c 8 t (ix1 j) = (V m c main_v26 : S3.Idx → EReal) (ix1 j) := by
  obtain ⟨e0, e1, e2, e3, e4, e5, e6, e7, e8, e9, e10, e11, e12, e13, e14, e15⟩ := idx_facts t
  show V m c main_v26 (((cfg0.win 8).blk t).view.emb (ix1 j)) = V m c main_v26 (ix1 j)
  refine congrArg _ (funext fun a => Fin.ext ?_)
  match a with
  | ⟨0, _⟩ => show win0_8.index t (0 : Fin 1) * 3 + 1 * j.val = j.val; omega

/-- Entry `(p, g)` of the result's block at point `t` is entry `(4096·t + p, g)` of the array. -/
theorem emb9_apply (t : Fin cfg0.N) (p : Fin 4096) (g : Fin 3) :
    ((cfg0.win 9).blk t).view.emb (ix2 p g) = ix2 (⟨win0_9.index t (0 : Fin 2) * 4096 + p.val, rowAt_lt t p⟩ : Fin 262144) g := by
  obtain ⟨e0, e1, e2, e3, e4, e5, e6, e7, e8, e9, e10, e11, e12, e13, e14, e15⟩ := idx_facts t
  refine funext fun a => Fin.ext ?_
  match a with
  | ⟨0, _⟩ => show win0_9.index t (0 : Fin 2) * 4096 + 1 * p.val = win0_9.index t (0 : Fin 2) * 4096 + p.val; omega
  | ⟨1, _⟩ => show win0_9.index t (1 : Fin 2) * 3 + 1 * g.val = g.val; omega

set_option maxHeartbeats 1000000 in
/-- What point `t` writes back is block `t` of `Gv`. -/
theorem flushed9_eq (c : Dev nD) (t : Fin cfg0.N) :
    (dats m 0 c).flushed 9 t = ((cfg0.win 9).blk t).view.read (Elt Ideal) (Gv m c) := by
  show (cfg0.win 9).cut (grid0.coords t) ((dats m 0 c).after 9 t) = _
  rw [after0_9]
  unfold out0_9
  rw [View.canon_unit_zero hz2]
  simp only [View.ld_unit_zero (S := S4096x10) hz2, View.ld_unit_zero (S := S10x256) hz2, View.ld_unit_zero (S := S256) hz1,
    View.ld_unit_zero (S := S256x256) hz2, View.ld_unit_zero (S := S256x128) hz2, View.ld_unit_zero (S := S128) hz1,
    View.ld_unit_zero (S := S128x3) hz2, View.ld_unit_zero (S := S3) hz1]
  funext j
  obtain ⟨p, g, rfl⟩ : ∃ (p : Fin 4096) (g : Fin 3), j = ix2 p g := ⟨j 0, j 1, eq_ix2 j⟩
  refine (Cert.KernelIdeal.Block.block_apply (iblk m c 0 t) (iblk m c 1 t) (iblk m c 2 t) (iblk m c 3 t) (iblk m c 4 t)
    (iblk m c 5 t) (iblk m c 6 t) (iblk m c 7 t) (iblk m c 8 t) p g).trans ?_
  show _ = Gv m c (((cfg0.win 9).blk t).view.emb (ix2 p g))
  rw [emb9_apply t p g]
  show _ = rowOf m c _ g
  unfold rowOf
  simp only [iblk0_apply m c t p, iblk1_apply m c t, iblk2_apply m c t, iblk3_apply m c t, iblk4_apply m c t, iblk5_apply m c t,
    iblk6_apply m c t, iblk7_apply m c t, iblk8_apply m c t]

/-- An index of the result is in point `t`'s block iff each coordinate is in the block's range. -/
theorem mem_blk9 (t : Fin cfg0.N) (i : S262144x3.Idx) :
    i ∈ ((cfg0.win 9).blk t).view.set ↔ ∀ a : Fin 2, win0_9.index t a * S4096x3.size a ≤ (i a).val ∧ (i a).val < win0_9.index t a * S4096x3.size a + S4096x3.size a := by
  show i ∈ ((View.whole main_v29).slice (win0_9.rect t)).set ↔ _
  rw [View.set_slice_whole, Rect.mem_set_unit]
  exact Iff.rfl

/-- The 64 blocks tile the result: row `r` lies in block `r / 4096`. -/
theorem cover9 (i : S262144x3.Idx) :
    ∃ t : Fin cfg0.N, (cfg0.win 9).flush t = true ∧ i ∈ ((cfg0.win 9).blk t).view.set := by
  have hi0 : (i 0).val < 262144 := (i 0).isLt
  have hi1 : (i 1).val < 3 := (i 1).isLt
  obtain ⟨t, ht⟩ := idx_onto ⟨(i 0).val / 4096, by omega⟩
  have q0 : win0_9.index t (0 : Fin 2) = (i 0).val / 4096 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 4096 ≤ (i 0).val ∧ (i 0).val < win0_9.index t (0 : Fin 2) * 4096 + 4096; omega
  | ⟨1, _⟩ => show win0_9.index t (1 : Fin 2) * 3 ≤ (i 1).val ∧ (i 1).val < win0_9.index t (1 : Fin 2) * 3 + 3; omega

/-- The result array after the run is `Gv`. -/
theorem final9 (c : Dev nD) : (dats m 0 c).arrAt 9 cfg0.N = Gv m c :=
  (dats m 0 c).arrAt_eq_of_cover 9 (Gv m c) (fun t _ => flushed9_eq m c t) (cover9)

/-- `Gv` at `(r, g)`, with the host operations' packing folded in: the kernel's row function of row `r` of the
    original arguments. -/
theorem Gv_apply (c : Dev nD) (r : Fin 262144) (g : Fin 3) :
    Gv m c (ix2 r g) = Cert.Mlp.kFinal (fun k => (m ((c.tc : Thread nD τ).loc main_arg0)) (ix2 r k)) ((m ((c.tc : Thread nD τ).loc main_arg1)) (ix2 r 0)) (fun k => (m ((c.tc : Thread nD τ).loc main_arg2)) (ix2 r k)) (fun k => (m ((c.tc : Thread nD τ).loc main_arg3)) (ix2 r k))
      (fun j k => (m ((c.tc : Thread nD τ).loc main_arg4)) (ix2 j k)) (fun j => (m ((c.tc : Thread nD τ).loc main_arg5)) (ix1 j)) (fun j k => (m ((c.tc : Thread nD τ).loc main_arg6)) (ix2 j k)) (fun j => (m ((c.tc : Thread nD τ).loc main_arg7)) (ix1 j))
      (fun j k => (m ((c.tc : Thread nD τ).loc main_arg8)) (ix2 j k)) (fun j => (m ((c.tc : Thread nD τ).loc main_arg9)) (ix1 j)) (fun j k => (m ((c.tc : Thread nD τ).loc main_arg10)) (ix2 j k)) (fun j => (m ((c.tc : Thread nD τ).loc main_arg11)) (ix1 j))
      ((m ((c.tc : Thread nD τ).loc main_arg12)) ix0) ((m ((c.tc : Thread nD τ).loc main_arg13)) ix0) g := by
  show rowOf m c r g = _
  unfold rowOf Cert.Mlp.kFinal
  simp only [Cert.KernelIdeal.Host.V_v28_apply m c, Cert.KernelIdeal.Host.V_v16_apply m c, Cert.KernelIdeal.Host.V_v18_apply m c,
    Cert.KernelIdeal.Host.V_v20_apply m c, Cert.KernelIdeal.Host.V_v24_apply m c, Cert.KernelIdeal.Host.V_v26_apply m c,
    V_main_arg5 m c, V_main_arg7 m c, V_main_arg9 m c]

/-- The run, read: the result array is `Gv`, the arguments are unchanged. -/
theorem run : θ_run defs (onTc (τ := τ) (main (F := Ideal))) ⟨m, fun _ => 0, ρ⟩ fun r => ∀ c : Dev nD,
      r.2.mem ((c.tc : Thread nD τ).loc main_v29) = Gv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).1 9).trans (final9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((Frame.dats m 0 c).arrAt_in 2 rfl _).trans ((A_eq m c 2).trans (V_main_arg5 m c))),
      ((h c).2 main_arg6 (Pipeline.mem_restRefs_of main_arg6 (by decide) (by decide))).trans (V_main_arg6 m c),
      ((h c).1 4).trans (((Frame.dats m 0 c).arrAt_in 4 rfl _).trans ((A_eq m c 4).trans (V_main_arg7 m c))),
      ((h c).2 main_arg8 (Pipeline.mem_restRefs_of main_arg8 (by decide) (by decide))).trans (V_main_arg8 m c),
      ((h c).1 6).trans (((Frame.dats m 0 c).arrAt_in 6 rfl _).trans ((A_eq m c 6).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.KValue

end
-- ==== Proof.RefValue.lean ====
/-
  The reference's result, read at one entry.

  The reference's 84 host operations compose, at row `r` and column `g` of the result, to the reference's
  row function `Cert.Mlp.rOut` of row `r` of the four narrow inputs and of the weights: the blend and the
  concatenation to seven features, three dense layers with the `h/(1+e^{-h})` activation, the fourth dense
  layer scaled by `β`, and the softmax of the row's three logits.
-/
import proofs.«406189_j49297634623652_3_alg».proof.Proof.Gen.ReferenceIdeal.Read
import proofs.«406189_j49297634623652_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.Finset.Fold

noncomputable section

namespace Cert.ReferenceIdeal.RefValue

open Idealize.ShloMosaic Idealize.ShloMosaic.ValueIdx Cert.ReferenceIdeal Cert.ReferenceIdeal.Gen Cert.ReferenceIdeal.Read

/-- The blend weight: `δ = 1 / (1 + e^{-log_delta})`. -/
theorem delta_apply (x13 : (⟨S_, .f32⟩ : BufTy).Contents (Elt Ideal)) (i : S_.Idx) :
    val_main_v5 (F := Ideal) x13 i = Cert.Mlp.delta (x13 ix0) := by
  obtain rfl : i = ix0 := eq_ix0 i
  rfl

/-- The logit scale: `β = min 20 (max ½ e^{log_beta})`. -/
theorem beta_apply (x12 : (⟨S_, .f32⟩ : BufTy).Contents (Elt Ideal)) (i : S_.Idx) :
    val_main_v1 (F := Ideal) x12 i = Cert.Mlp.beta (x12 ix0) := by
  obtain rfl : i = ix0 := eq_ix0 i
  rfl

/-- The blended columns: `δ·xb + (1-δ)·q` at row `r`, column `c`. -/
theorem blend_apply (x2 : (⟨S262144x3, .f32⟩ : BufTy).Contents (Elt Ideal)) (x3 : (⟨S262144x3, .f32⟩ : BufTy).Contents (Elt Ideal)) (x13 : (⟨S_, .f32⟩ : BufTy).Contents (Elt Ideal)) (r : Fin 262144) (c : Fin 3) :
    val_main_v11 (F := Ideal) x2 x3 x13 (ix2 r c)
      = Cert.Mlp.delta (x13 ix0) * x2 (ix2 r c) + (Cert.Mlp.cOne - Cert.Mlp.delta (x13 ix0)) * x3 (ix2 r c) := by
  rw [val_main_v11_apply, val_main_v7_apply, val_main_v10_apply, val_main_v6_apply, val_main_v9_apply, val_main_v8_apply,
    val_main_cst_3_apply, delta_apply]
  rfl

/-- Columns 0..2 of the seven features are the first input's. -/
theorem feat_piece0 (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x13 : (⟨S_, .f32⟩ : BufTy).Contents (Elt Ideal)) (r : Fin 262144) (k : Fin 7) (c : Fin 3) (h : k.val = c.val) :
    val_main_v12 (F := Ideal) x0 x1 x2 x3 x13 (ix2 r k) = x0 (ix2 r c) := by
  unfold val_main_v12
  refine concatenate_apply_piece (t := S262144x7) 1 [⟨S262144x3, x0⟩, ⟨S262144x1, x1⟩, ⟨S262144x3, val_main_v11 (F := Ideal) x2 x3 x13⟩] concatenates_S262144x3_S262144x1_S262144x3_S262144x7_d1 (ix2 r k) 0 (show 0 < 3 by omega) S262144x3 x0 rfl rfl 0 rfl (ix2 r c) (fun b hb => ?_) ?_
  · match b with
    | ⟨0, _⟩ => rfl
    | ⟨1, _⟩ => exact absurd rfl hb
  · show 0 + c.val = k.val
    omega

/-- Column 3 is the second input's one column. -/
theorem feat_piece1 (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x13 : (⟨S_, .f32⟩ : BufTy).Contents (Elt Ideal)) (r : Fin 262144) (k : Fin 7) (h : k.val = 3) :
    val_main_v12 (F := Ideal) x0 x1 x2 x3 x13 (ix2 r k) = x1 (ix2 r 0) := by
  unfold val_main_v12
  refine concatenate_apply_piece (t := S262144x7) 1 [⟨S262144x3, x0⟩, ⟨S262144x1, x1⟩, ⟨S262144x3, val_main_v11 (F := Ideal) x2 x3 x13⟩] concatenates_S262144x3_S262144x1_S262144x3_S262144x7_d1 (ix2 r k) 1 (show 1 < 3 by omega) S262144x1 x1 rfl rfl 3 rfl (ix2 r 0) (fun b hb => ?_) ?_
  · match b with
    | ⟨0, _⟩ => rfl
    | ⟨1, _⟩ => exact absurd rfl hb
  · show 3 + 0 = k.val
    omega

/-- Columns 4..6 are the blended columns. -/
theorem feat_piece2 (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x13 : (⟨S_, .f32⟩ : BufTy).Contents (Elt Ideal)) (r : Fin 262144) (k : Fin 7) (c : Fin 3) (h : k.val = 4 + c.val) :
    val_main_v12 (F := Ideal) x0 x1 x2 x3 x13 (ix2 r k) = val_main_v11 (F := Ideal) x2 x3 x13 (ix2 r c) := by
  unfold val_main_v12
  refine concatenate_apply_piece (t := S262144x7) 1 [⟨S262144x3, x0⟩, ⟨S262144x1, x1⟩, ⟨S262144x3, val_main_v11 (F := Ideal) x2 x3 x13⟩] concatenates_S262144x3_S262144x1_S262144x3_S262144x7_d1 (ix2 r k) 2 (show 2 < 3 by omega) S262144x3 (val_main_v11 (F := Ideal) x2 x3 x13) rfl rfl 4 rfl (ix2 r c) (fun b hb => ?_) ?_
  · match b with
    | ⟨0, _⟩ => rfl
    | ⟨1, _⟩ => exact absurd rfl hb
  · show 4 + c.val = k.val
    omega

/-- The seven features of row `r`. -/
theorem feat_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x13 : (⟨S_, .f32⟩ : BufTy).Contents (Elt Ideal)) (r : Fin 262144) (k : Fin 7) :
    val_main_v12 (F := Ideal) x0 x1 x2 x3 x13 (ix2 r k)
      = Cert.Mlp.xin (fun k => x0 (ix2 r k)) (x1 (ix2 r 0)) (fun k => x2 (ix2 r k)) (fun k => x3 (ix2 r k)) (x13 ix0) k := by
  match k with
  | ⟨0, _⟩ => exact feat_piece0 x0 x1 x2 x3 x13 r _ 0 rfl
  | ⟨1, _⟩ => exact feat_piece0 x0 x1 x2 x3 x13 r _ 1 rfl
  | ⟨2, _⟩ => exact feat_piece0 x0 x1 x2 x3 x13 r _ 2 rfl
  | ⟨3, _⟩ => exact feat_piece1 x0 x1 x2 x3 x13 r _ rfl
  | ⟨4, _⟩ => exact (feat_piece2 x0 x1 x2 x3 x13 r _ 0 rfl).trans (blend_apply x2 x3 x13 r 0)
  | ⟨5, _⟩ => exact (feat_piece2 x0 x1 x2 x3 x13 r _ 1 rfl).trans (blend_apply x2 x3 x13 r 1)
  | ⟨6, _⟩ => exact (feat_piece2 x0 x1 x2 x3 x13 r _ 2 rfl).trans (blend_apply x2 x3 x13 r 2)

/-- One hidden layer of a row: the activation of each dense entry. -/
def hid {K N : ℕ} (x : Fin K → EReal) (W : Fin N → Fin K → EReal) (b : Fin N → EReal) (j : Fin N) : EReal :=
  Cert.Mlp.actR (Cert.Mlp.dense x (fun k => W j k) (b j))

/-- Layer 1 before its activation: the row's previous layer against row `j` of the weights, plus the bias. -/
theorem pre1_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x13 : (⟨S_, .f32⟩ : BufTy).Contents (Elt Ideal)) (r : Fin 262144) (j : Fin 256) :
    val_main_v17 (F := Ideal) x0 x1 x2 x3 x4 x5 x13 (ix2 r j)
      = Cert.Mlp.dense (Cert.Mlp.xin (fun k => x0 (ix2 r k)) (x1 (ix2 r 0)) (fun k => x2 (ix2 r k)) (fun k => x3 (ix2 r k)) (x13 ix0)) (fun k => x4 (ix2 j k)) (x5 (ix1 j)) := by
  rw [val_main_v17_apply, val_main_v14_apply, val_main_v16_apply, val_main_v15_apply, Ideal.addf_def]
  unfold Cert.Mlp.dense
  refine congrArg₂ (· + ·) (Finset.sum_congr rfl fun k _ => ?_) (congrArg x5 (funext fun a => Fin.ext (by match a with | ⟨0, _⟩ => rfl)))
  rw [val_main_v13_apply]
  have e1 : lidx_main_v14 (ix2 r j) k = ix2 r k := funext fun a => Fin.ext (by match a with | ⟨0, _⟩ => rfl | ⟨1, _⟩ => rfl)
  have e2 : idx_main_v13 (ridx_main_v14 (ix2 r j) k) = ix2 j k := funext fun a => Fin.ext (by match a with | ⟨0, _⟩ => rfl | ⟨1, _⟩ => rfl)
  rw [e1, e2, feat_apply]

/-- The activation call after layer 1: `h · (1 / (1 + e^{-h}))` entry by entry. -/
theorem act1_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x13 : (⟨S_, .f32⟩ : BufTy).Contents (Elt Ideal)) (i : S262144x256.Idx) :
    val_main_v18 (F := Ideal) x0 x1 x2 x3 x4 x5 x13 i = Cert.Mlp.actR (val_main_v17 (F := Ideal) x0 x1 x2 x3 x4 x5 x13 i) := by
  rw [val_main_v18_apply, val_main_call1_v5_apply, val_main_call1_v4_apply, val_main_call1_cst_0_apply,
    val_main_call1_v3_apply, val_main_call1_v2_apply, val_main_call1_cst_apply, val_main_call1_v1_apply,
    val_main_call1_v0_apply]
  generalize val_main_v17 (F := Ideal) x0 x1 x2 x3 x4 x5 x13 i = h
  rfl

/-- The first hidden layer of row `r`. -/
theorem hid1_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x13 : (⟨S_, .f32⟩ : BufTy).Contents (Elt Ideal)) (r : Fin 262144) (j : Fin 256) :
    val_main_v18 (F := Ideal) x0 x1 x2 x3 x4 x5 x13 (ix2 r j) = (hid (Cert.Mlp.xin (fun k => x0 (ix2 r k)) (x1 (ix2 r 0)) (fun k => x2 (ix2 r k)) (fun k => x3 (ix2 r k)) (x13 ix0)) (fun j k => x4 (ix2 j k)) (fun j => x5 (ix1 j))) j := by
  rw [act1_apply, pre1_apply]
  rfl

/-- Layer 2 before its activation: the row's previous layer against row `j` of the weights, plus the bias. -/
theorem pre2_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x13 : (⟨S_, .f32⟩ : BufTy).Contents (Elt Ideal)) (r : Fin 262144) (j : Fin 256) :
    val_main_v23 (F := Ideal) x0 x1 x2 x3 x4 x5 x6 x7 x13 (ix2 r j)
      = Cert.Mlp.dense (hid (Cert.Mlp.xin (fun k => x0 (ix2 r k)) (x1 (ix2 r 0)) (fun k => x2 (ix2 r k)) (fun k => x3 (ix2 r k)) (x13 ix0)) (fun j k => x4 (ix2 j k)) (fun j => x5 (ix1 j))) (fun k => x6 (ix2 j k)) (x7 (ix1 j)) := by
  rw [val_main_v23_apply, val_main_v20_apply, val_main_v22_apply, val_main_v21_apply, Ideal.addf_def]
  unfold Cert.Mlp.dense
  refine congrArg₂ (· + ·) (Finset.sum_congr rfl fun k _ => ?_) (congrArg x7 (funext fun a => Fin.ext (by match a with | ⟨0, _⟩ => rfl)))
  rw [val_main_v19_apply]
  have e1 : lidx_main_v20 (ix2 r j) k = ix2 r k := funext fun a => Fin.ext (by match a with | ⟨0, _⟩ => rfl | ⟨1, _⟩ => rfl)
  have e2 : idx_main_v19 (ridx_main_v20 (ix2 r j) k) = ix2 j k := funext fun a => Fin.ext (by match a with | ⟨0, _⟩ => rfl | ⟨1, _⟩ => rfl)
  rw [e1, e2, hid1_apply]

/-- The activation call after layer 2: `h · (1 / (1 + e^{-h}))` entry by entry. -/
theorem act2_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x13 : (⟨S_, .f32⟩ : BufTy).Contents (Elt Ideal)) (i : S262144x256.Idx) :
    val_main_v24 (F := Ideal) x0 x1 x2 x3 x4 x5 x6 x7 x13 i = Cert.Mlp.actR (val_main_v23 (F := Ideal) x0 x1 x2 x3 x4 x5 x6 x7 x13 i) := by
  rw [val_main_v24_apply, val_main_call2_v5_apply, val_main_call2_v4_apply, val_main_call2_cst_0_apply,
    val_main_call2_v3_apply, val_main_call2_v2_apply, val_main_call2_cst_apply, val_main_call2_v1_apply,
    val_main_call2_v0_apply]
  generalize val_main_v23 (F := Ideal) x0 x1 x2 x3 x4 x5 x6 x7 x13 i = h
  rfl

/-- The second hidden layer of row `r`. -/
theorem hid2_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x13 : (⟨S_, .f32⟩ : BufTy).Contents (Elt Ideal)) (r : Fin 262144) (j : Fin 256) :
    val_main_v24 (F := Ideal) x0 x1 x2 x3 x4 x5 x6 x7 x13 (ix2 r j) = (hid (hid (Cert.Mlp.xin (fun k => x0 (ix2 r k)) (x1 (ix2 r 0)) (fun k => x2 (ix2 r k)) (fun k => x3 (ix2 r k)) (x13 ix0)) (fun j k => x4 (ix2 j k)) (fun j => x5 (ix1 j))) (fun j k => x6 (ix2 j k)) (fun j => x7 (ix1 j))) j := by
  rw [act2_apply, pre2_apply]
  rfl

/-- Layer 3 before its activation: the row's previous layer against row `j` of the weights, plus the bias. -/
theorem pre3_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S128x256, .f32⟩ : BufTy).Contents (Elt Ideal)) (x9 : (⟨S128, .f32⟩ : BufTy).Contents (Elt Ideal)) (x13 : (⟨S_, .f32⟩ : BufTy).Contents (Elt Ideal)) (r : Fin 262144) (j : Fin 128) :
    val_main_v29 (F := Ideal) x0 x1 x2 x3 x4 x5 x6 x7 x8 x9 x13 (ix2 r j)
      = Cert.Mlp.dense (hid (hid (Cert.Mlp.xin (fun k => x0 (ix2 r k)) (x1 (ix2 r 0)) (fun k => x2 (ix2 r k)) (fun k => x3 (ix2 r k)) (x13 ix0)) (fun j k => x4 (ix2 j k)) (fun j => x5 (ix1 j))) (fun j k => x6 (ix2 j k)) (fun j => x7 (ix1 j))) (fun k => x8 (ix2 j k)) (x9 (ix1 j)) := by
  rw [val_main_v29_apply, val_main_v26_apply, val_main_v28_apply, val_main_v27_apply, Ideal.addf_def]
  unfold Cert.Mlp.dense
  refine congrArg₂ (· + ·) (Finset.sum_congr rfl fun k _ => ?_) (congrArg x9 (funext fun a => Fin.ext (by match a with | ⟨0, _⟩ => rfl)))
  rw [val_main_v25_apply]
  have e1 : lidx_main_v26 (ix2 r j) k = ix2 r k := funext fun a => Fin.ext (by match a with | ⟨0, _⟩ => rfl | ⟨1, _⟩ => rfl)
  have e2 : idx_main_v25 (ridx_main_v26 (ix2 r j) k) = ix2 j k := funext fun a => Fin.ext (by match a with | ⟨0, _⟩ => rfl | ⟨1, _⟩ => rfl)
  rw [e1, e2, hid2_apply]

/-- The activation call after layer 3: `h · (1 / (1 + e^{-h}))` entry by entry. -/
theorem act3_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S128x256, .f32⟩ : BufTy).Contents (Elt Ideal)) (x9 : (⟨S128, .f32⟩ : BufTy).Contents (Elt Ideal)) (x13 : (⟨S_, .f32⟩ : BufTy).Contents (Elt Ideal)) (i : S262144x128.Idx) :
    val_main_v30 (F := Ideal) x0 x1 x2 x3 x4 x5 x6 x7 x8 x9 x13 i = Cert.Mlp.actR (val_main_v29 (F := Ideal) x0 x1 x2 x3 x4 x5 x6 x7 x8 x9 x13 i) := by
  rw [val_main_v30_apply, val_main_call3_v5_apply, val_main_call3_v4_apply, val_main_call3_cst_0_apply,
    val_main_call3_v3_apply, val_main_call3_v2_apply, val_main_call3_cst_apply, val_main_call3_v1_apply,
    val_main_call3_v0_apply]
  generalize val_main_v29 (F := Ideal) x0 x1 x2 x3 x4 x5 x6 x7 x8 x9 x13 i = h
  rfl

/-- The third hidden layer of row `r`. -/
theorem hid3_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S128x256, .f32⟩ : BufTy).Contents (Elt Ideal)) (x9 : (⟨S128, .f32⟩ : BufTy).Contents (Elt Ideal)) (x13 : (⟨S_, .f32⟩ : BufTy).Contents (Elt Ideal)) (r : Fin 262144) (j : Fin 128) :
    val_main_v30 (F := Ideal) x0 x1 x2 x3 x4 x5 x6 x7 x8 x9 x13 (ix2 r j) = (hid (hid (hid (Cert.Mlp.xin (fun k => x0 (ix2 r k)) (x1 (ix2 r 0)) (fun k => x2 (ix2 r k)) (fun k => x3 (ix2 r k)) (x13 ix0)) (fun j k => x4 (ix2 j k)) (fun j => x5 (ix1 j))) (fun j k => x6 (ix2 j k)) (fun j => x7 (ix1 j))) (fun j k => x8 (ix2 j k)) (fun j => x9 (ix1 j))) j := by
  rw [act3_apply, pre3_apply]
  rfl

/-- Layer 4 before its activation: the row's previous layer against row `j` of the weights, plus the bias. -/
theorem pre4_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S128x256, .f32⟩ : BufTy).Contents (Elt Ideal)) (x9 : (⟨S128, .f32⟩ : BufTy).Contents (Elt Ideal)) (x10 : (⟨S3x128, .f32⟩ : BufTy).Contents (Elt Ideal)) (x11 : (⟨S3, .f32⟩ : BufTy).Contents (Elt Ideal)) (x13 : (⟨S_, .f32⟩ : BufTy).Contents (Elt Ideal)) (r : Fin 262144) (j : Fin 3) :
    val_main_v35 (F := Ideal) x0 x1 x2 x3 x4 x5 x6 x7 x8 x9 x10 x11 x13 (ix2 r j)
      = Cert.Mlp.dense (hid (hid (hid (Cert.Mlp.xin (fun k => x0 (ix2 r k)) (x1 (ix2 r 0)) (fun k => x2 (ix2 r k)) (fun k => x3 (ix2 r k)) (x13 ix0)) (fun j k => x4 (ix2 j k)) (fun j => x5 (ix1 j))) (fun j k => x6 (ix2 j k)) (fun j => x7 (ix1 j))) (fun j k => x8 (ix2 j k)) (fun j => x9 (ix1 j))) (fun k => x10 (ix2 j k)) (x11 (ix1 j)) := by
  rw [val_main_v35_apply, val_main_v32_apply, val_main_v34_apply, val_main_v33_apply, Ideal.addf_def]
  unfold Cert.Mlp.dense
  refine congrArg₂ (· + ·) (Finset.sum_congr rfl fun k _ => ?_) (congrArg x11 (funext fun a => Fin.ext (by match a with | ⟨0, _⟩ => rfl)))
  rw [val_main_v31_apply]
  have e1 : lidx_main_v32 (ix2 r j) k = ix2 r k := funext fun a => Fin.ext (by match a with | ⟨0, _⟩ => rfl | ⟨1, _⟩ => rfl)
  have e2 : idx_main_v31 (ridx_main_v32 (ix2 r j) k) = ix2 j k := funext fun a => Fin.ext (by match a with | ⟨0, _⟩ => rfl | ⟨1, _⟩ => rfl)
  rw [e1, e2, hid3_apply]

/-- The scaled logits of row `r`. -/
theorem logits_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S128x256, .f32⟩ : BufTy).Contents (Elt Ideal)) (x9 : (⟨S128, .f32⟩ : BufTy).Contents (Elt Ideal)) (x10 : (⟨S3x128, .f32⟩ : BufTy).Contents (Elt Ideal)) (x11 : (⟨S3, .f32⟩ : BufTy).Contents (Elt Ideal)) (x12 : (⟨S_, .f32⟩ : BufTy).Contents (Elt Ideal)) (x13 : (⟨S_, .f32⟩ : BufTy).Contents (Elt Ideal)) (r : Fin 262144) (g : Fin 3) :
    val_main_v37 (F := Ideal) x0 x1 x2 x3 x4 x5 x6 x7 x8 x9 x10 x11 x12 x13 (ix2 r g)
      = Cert.Mlp.rLogits (fun k => x0 (ix2 r k)) (x1 (ix2 r 0)) (fun k => x2 (ix2 r k)) (fun k => x3 (ix2 r k))
          (fun j k => x4 (ix2 j k)) (fun j => x5 (ix1 j)) (fun j k => x6 (ix2 j k)) (fun j => x7 (ix1 j))
          (fun j k => x8 (ix2 j k)) (fun j => x9 (ix1 j)) (fun j k => x10 (ix2 j k)) (fun j => x11 (ix1 j))
          (x12 ix0) (x13 ix0) g := by
  rw [val_main_v37_apply, val_main_v36_apply, pre4_apply, beta_apply]
  rfl

/-- The reduced index `r` with column `k` put back is `(r, k)`. -/
theorem lift_row (h : S262144x3.Reduces [1] S262144) (r : Fin 262144) (k : Fin (S262144x3.size 1)) :
    h.lift (ix1 r) k = ix2 r (⟨k.val, k.isLt⟩ : Fin 3) := by
  funext c; apply Fin.ext
  match c with
  | ⟨0, _⟩ => rfl
  | ⟨1, _⟩ => rfl

/-- The row maximum: the reduce over the three columns from `-∞`, then the maximum with `-∞` again, which changes
    nothing because the fold already starts there. -/
theorem rowMax_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S128x256, .f32⟩ : BufTy).Contents (Elt Ideal)) (x9 : (⟨S128, .f32⟩ : BufTy).Contents (Elt Ideal)) (x10 : (⟨S3x128, .f32⟩ : BufTy).Contents (Elt Ideal)) (x11 : (⟨S3, .f32⟩ : BufTy).Contents (Elt Ideal)) (x12 : (⟨S_, .f32⟩ : BufTy).Contents (Elt Ideal)) (x13 : (⟨S_, .f32⟩ : BufTy).Contents (Elt Ideal)) (r : Fin 262144) :
    val_main_v40 (F := Ideal) x0 x1 x2 x3 x4 x5 x6 x7 x8 x9 x10 x11 x12 x13 (ix1 r)
      = Cert.Mlp.rowMax (fun g => val_main_v37 (F := Ideal) x0 x1 x2 x3 x4 x5 x6 x7 x8 x9 x10 x11 x12 x13 (ix2 r g)) := by
  have h : S262144x3.Reduces [1] S262144 := by decide
  rw [val_main_v40_apply, val_main_v39_apply, val_main_cst_5_apply, Ideal.maximumf_def]
  unfold val_main_v38
  rw [Host.reduce_eq_fold_single FloatOps.maximumf _ _ reducesTo_S262144x3_S262144_d1 h h_S_, val_main_cst_4_apply]
  generalize val_main_v37 (F := Ideal) x0 x1 x2 x3 x4 x5 x6 x7 x8 x9 x10 x11 x12 x13 = y
  have hf : (y ∘ h.lift (ix1 r)) = fun k : Fin 3 => y (ix2 r k) := funext fun k => congrArg y (lift_row h r k)
  have e : (Finset.univ : Finset (Fin 3)).fold FloatOps.maximumf (FloatOps.ofBits (F := Ideal) .f32 0xFF800000#32) (y ∘ h.lift (ix1 r))
      = Cert.Mlp.rowMax (fun g => y (ix2 r g)) :=
    congrArg (fun f => Finset.fold max Cert.Mlp.cNegInf f (Finset.univ : Finset (Fin 3))) hf
  refine Eq.trans ?_ e
  exact max_eq_right ((Finset.le_fold_max _).mpr (Or.inl le_rfl))

/-- The softmax of the row's three logits. -/
theorem softmax_apply (x0 : (⟨S262144x3, .f32⟩ : BufTy).Contents (Elt Ideal)) (x1 : (⟨S262144x1, .f32⟩ : BufTy).Contents (Elt Ideal)) (x2 : (⟨S262144x3, .f32⟩ : BufTy).Contents (Elt Ideal)) (x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S128x256, .f32⟩ : BufTy).Contents (Elt Ideal)) (x9 : (⟨S128, .f32⟩ : BufTy).Contents (Elt Ideal)) (x10 : (⟨S3x128, .f32⟩ : BufTy).Contents (Elt Ideal)) (x11 : (⟨S3, .f32⟩ : BufTy).Contents (Elt Ideal)) (x12 : (⟨S_, .f32⟩ : BufTy).Contents (Elt Ideal)) (x13 : (⟨S_, .f32⟩ : BufTy).Contents (Elt Ideal)) (r : Fin 262144) (g : Fin 3) :
    val_main_v48 (F := Ideal) x0 x1 x2 x3 x4 x5 x6 x7 x8 x9 x10 x11 x12 x13 (ix2 r g)
      = Cert.Mlp.smax (fun g => val_main_v37 (F := Ideal) x0 x1 x2 x3 x4 x5 x6 x7 x8 x9 x10 x11 x12 x13 (ix2 r g)) g := by
  have e42 : ∀ c : Fin 3, val_main_v42 (F := Ideal) x0 x1 x2 x3 x4 x5 x6 x7 x8 x9 x10 x11 x12 x13 (ix2 r c)
      = Cert.Mlp.rowMax (fun g => val_main_v37 (F := Ideal) x0 x1 x2 x3 x4 x5 x6 x7 x8 x9 x10 x11 x12 x13 (ix2 r g)) := fun c => by
    rw [val_main_v42_apply, val_main_v41_apply]
    exact (congrArg (val_main_v40 (F := Ideal) x0 x1 x2 x3 x4 x5 x6 x7 x8 x9 x10 x11 x12 x13) (funext fun a => Fin.ext (by match a with | ⟨0, _⟩ => rfl))).trans (rowMax_apply x0 x1 x2 x3 x4 x5 x6 x7 x8 x9 x10 x11 x12 x13 r)
  have e44 : ∀ c : Fin 3, val_main_v44 (F := Ideal) x0 x1 x2 x3 x4 x5 x6 x7 x8 x9 x10 x11 x12 x13 (ix2 r c)
      = Ideal.exp (val_main_v37 (F := Ideal) x0 x1 x2 x3 x4 x5 x6 x7 x8 x9 x10 x11 x12 x13 (ix2 r c) - Cert.Mlp.rowMax (fun g => val_main_v37 (F := Ideal) x0 x1 x2 x3 x4 x5 x6 x7 x8 x9 x10 x11 x12 x13 (ix2 r g))) := fun c => by
    rw [val_main_v44_apply, val_main_v43_apply, e42]
    rfl
  have e47 : val_main_v47 (F := Ideal) x0 x1 x2 x3 x4 x5 x6 x7 x8 x9 x10 x11 x12 x13 (ix2 r g)
      = ∑ k : Fin 3, Ideal.exp (val_main_v37 (F := Ideal) x0 x1 x2 x3 x4 x5 x6 x7 x8 x9 x10 x11 x12 x13 (ix2 r k) - Cert.Mlp.rowMax (fun g => val_main_v37 (F := Ideal) x0 x1 x2 x3 x4 x5 x6 x7 x8 x9 x10 x11 x12 x13 (ix2 r g))) := by
    rw [val_main_v47_apply, val_main_v46_apply, val_main_v45_apply, val_main_cst_6_apply, Ideal.ofBits_def, Ideal.ofBits_zero_f32, zero_add]
    refine Finset.sum_congr rfl fun k _ => ?_
    exact (congrArg (val_main_v44 (F := Ideal) x0 x1 x2 x3 x4 x5 x6 x7 x8 x9 x10 x11 x12 x13) (funext fun a => Fin.ext (by match a with | ⟨0, _⟩ => rfl | ⟨1, _⟩ => rfl))).trans (e44 k)
  rw [val_main_v48_apply, e44, e47]
  rfl

/-- The reference's result at `(r, g)` is the reference's row function of row `r`. -/
theorem ref_apply (x0 : (⟨S262144x3, .f32⟩ : BufTy).Contents (Elt Ideal)) (x1 : (⟨S262144x1, .f32⟩ : BufTy).Contents (Elt Ideal)) (x2 x3 : (⟨S262144x3, .f32⟩ : BufTy).Contents (Elt Ideal)) (x4 : (⟨S256x7, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S128x256, .f32⟩ : BufTy).Contents (Elt Ideal)) (x9 : (⟨S128, .f32⟩ : BufTy).Contents (Elt Ideal)) (x10 : (⟨S3x128, .f32⟩ : BufTy).Contents (Elt Ideal)) (x11 : (⟨S3, .f32⟩ : BufTy).Contents (Elt Ideal)) (x12 x13 : (⟨S_, .f32⟩ : BufTy).Contents (Elt Ideal)) (r : Fin 262144) (g : Fin 3) :
    val_main_v48 (F := Ideal) x0 x1 x2 x3 x4 x5 x6 x7 x8 x9 x10 x11 x12 x13 (ix2 r g)
      = Cert.Mlp.rOut (fun k => x0 (ix2 r k)) (x1 (ix2 r 0)) (fun k => x2 (ix2 r k)) (fun k => x3 (ix2 r k))
          (fun j k => x4 (ix2 j k)) (fun j => x5 (ix1 j)) (fun j k => x6 (ix2 j k)) (fun j => x7 (ix1 j))
          (fun j k => x8 (ix2 j k)) (fun j => x9 (ix1 j)) (fun j k => x10 (ix2 j k)) (fun j => x11 (ix1 j))
          (x12 ix0) (x13 ix0) g := by
  refine (softmax_apply x0 x1 x2 x3 x4 x5 x6 x7 x8 x9 x10 x11 x12 x13 r g).trans ?_
  unfold Cert.Mlp.rOut
  exact congrArg (fun l => Cert.Mlp.smax l g) (funext fun c => logits_apply x0 x1 x2 x3 x4 x5 x6 x7 x8 x9 x10 x11 x12 x13 r c)

end Cert.ReferenceIdeal.RefValue

end
-- ==== Proof.SpecMath.lean ====
/-
  The two arrangements of the row computation agree on real inputs.

  Three facts carry it: on a real `h`, `½·(1 + tanh(½h)) = 1/(1 + e^{-h})`, so the two activations are
  one function on the reals and map reals to reals; a dense layer of reals is a real; and with `δ`, `β`
  real, distributivity moves `δ`, `1-δ` from the features onto the weights and `β` from the logits
  onto the last layer's weights and bias.
-/
import proofs.«406189_j49297634623652_3_alg».proof.Proof.Spec

noncomputable section

namespace Cert.Mlp

open Idealize.ShloMosaic

/-! ## The literals as real numbers -/

/-- The pattern `0x3F000000` denotes one half. -/
theorem cHalf_eq : cHalf = ((1 / 2 : ℝ) : EReal) := by
  simp [Ideal.ofBits, Ideal.ieee, -EReal.coe_mul]; norm_num

/-- The pattern `0x3F800000` denotes one. -/
theorem cOne_eq : cOne = ((1 : ℝ) : EReal) := by
  simp [Ideal.ofBits, Ideal.ieee, -EReal.coe_mul]; norm_num

/-- The pattern `0x41A00000` denotes twenty. -/
theorem c20_eq : c20 = ((20 : ℝ) : EReal) := by
  simp [Ideal.ofBits, Ideal.ieee, -EReal.coe_mul]; norm_num

/-! ## The logistic function and the two activations on a real -/

/-- The logistic function on the reals. -/
def sg (r : ℝ) : ℝ := 1 / (1 + Real.exp (-r))

/-- The logistic function's denominator is positive, so not zero. -/
theorem one_add_exp_ne (r : ℝ) : (1 + Real.exp (-r) : ℝ) ≠ 0 := by
  have : (0 : ℝ) < 1 + Real.exp (-r) := by positivity
  exact this.ne'

/-- The identity of the two activations: half of one plus the hyperbolic tangent of half the argument is the logistic function. -/
theorem half_tanh (r : ℝ) : (1 / 2 : ℝ) * (1 + Real.tanh (1 / 2 * r)) = sg r := by
  unfold sg
  have hr : Real.exp (-r) = Real.exp (-(1 / 2 * r)) * Real.exp (-(1 / 2 * r)) := by
    rw [← Real.exp_add]; congr 1; ring
  have hinv : Real.exp (-(1 / 2 * r)) = (Real.exp (1 / 2 * r))⁻¹ := Real.exp_neg _
  have hpos : (0 : ℝ) < Real.exp (1 / 2 * r) := Real.exp_pos _
  rw [Real.tanh_eq_sinh_div_cosh, Real.sinh_eq, Real.cosh_eq, hr, hinv]
  set a := Real.exp (1 / 2 * r) with ha
  have ha0 : a ≠ 0 := hpos.ne'
  have h1 : a + a⁻¹ ≠ 0 := by
    have : 0 < a + a⁻¹ := by positivity
    exact this.ne'
  have h2 : 1 + a⁻¹ * a⁻¹ ≠ 0 := by
    have : 0 < 1 + a⁻¹ * a⁻¹ := by positivity
    exact this.ne'
  field_simp
  ring

/-- The exponential of the negation of a real is the real exponential. -/
theorem exp_neg_coe (r : ℝ) : Ideal.exp (-(r : EReal)) = ((Real.exp (-r) : ℝ) : EReal) := by
  rw [← EReal.coe_neg, Ideal.exp_coe]

/-- One over one plus `e^{-r}`, computed in the extended reals, is the logistic function of `r`. -/
theorem logistic_coe' (r : ℝ) : Ideal.div cOne (cOne + Ideal.exp (-(r : EReal))) = ((sg r : ℝ) : EReal) := by
  rw [exp_neg_coe, cOne_eq, ← EReal.coe_add, Ideal.div_coe (one_add_exp_ne r), ← EReal.coe_mul, one_mul]
  rfl

/-- The reference's activation on a real `r` is `r` times the logistic function of `r`. -/
theorem actR_coe (r : ℝ) : actR (r : EReal) = ((r * sg r : ℝ) : EReal) := by
  rw [actR, logistic_coe', ← EReal.coe_mul]

/-- The kernel's activation on a real `r` is also `r` times the logistic function of `r`. -/
theorem actK_coe (r : ℝ) : actK (r : EReal) = ((r * sg r : ℝ) : EReal) := by
  rw [actK, cHalf_eq, cOne_eq, ← EReal.coe_mul, Ideal.tanh_coe, ← EReal.coe_add, ← EReal.coe_mul, ← EReal.coe_mul,
    half_tanh]

/-! ## Sums and dense layers of reals -/

/-- A finite sum of real numbers, taken in the extended reals, is the real sum. -/
theorem sum_coe {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A family of extended reals that are all real is the image of a real family. -/
theorem isReal_fun {ι : Type} {x : ι → EReal} (h : ∀ k, IsReal (x k)) :
    ∃ x' : ι → ℝ, x = fun k => ((x' k : ℝ) : EReal) := by
  choose x' hx' using h
  exact ⟨x', funext hx'⟩

/-- A dense layer of reals is the real number the same formula gives over the reals. -/
theorem dense_coe {K : ℕ} (x w : Fin K → ℝ) (b : ℝ) :
    dense (fun k => ((x k : ℝ) : EReal)) (fun k => ((w k : ℝ) : EReal)) (b : EReal)
      = (((∑ k : Fin K, x k * w k) + b : ℝ) : EReal) := by
  unfold dense
  simp only [← EReal.coe_mul]
  rw [sum_coe, ← EReal.coe_add]

/-- A dense layer of reals is real. -/
theorem dense_real {K : ℕ} {x w : Fin K → EReal} {b : EReal} (hx : ∀ k, IsReal (x k)) (hw : ∀ k, IsReal (w k))
    (hb : IsReal b) : IsReal (dense x w b) := by
  obtain ⟨x', rfl⟩ := isReal_fun hx
  obtain ⟨w', rfl⟩ := isReal_fun hw
  obtain ⟨b', rfl⟩ := hb
  exact ⟨_, dense_coe x' w' b'⟩

/-- On a real the two activations agree. -/
theorem actK_eq_actR {h : EReal} (hh : IsReal h) : actK h = actR h := by
  obtain ⟨r, rfl⟩ := hh
  rw [actK_coe, actR_coe]

/-- The activation of a real is real. -/
theorem actR_real {h : EReal} (hh : IsReal h) : IsReal (actR h) := by
  obtain ⟨r, rfl⟩ := hh
  exact ⟨_, actR_coe r⟩

/-- A dense layer over the kernel's activation of one family equals the same layer over the reference's
    activation of an equal real family. -/
theorem dense_act_congr {K : ℕ} {z z' : Fin K → EReal} (hz : ∀ j, z j = z' j) (hr : ∀ j, IsReal (z' j))
    (w : Fin K → EReal) (b : EReal) :
    dense (fun j => actK (z j)) w b = dense (fun j => actR (z' j)) w b := by
  have h : (fun j => actK (z j)) = fun j => actR (z' j) := funext fun j => by rw [hz j, actK_eq_actR (hr j)]
  rw [h]

/-- Scaling the weights and the bias of a real dense layer scales its value. -/
theorem dense_scale {K : ℕ} {x w : Fin K → EReal} {b c : EReal} (hx : ∀ k, IsReal (x k)) (hw : ∀ k, IsReal (w k))
    (hb : IsReal b) (hc : IsReal c) : dense x (fun k => c * w k) (c * b) = dense x w b * c := by
  obtain ⟨x', rfl⟩ := isReal_fun hx
  obtain ⟨w', rfl⟩ := isReal_fun hw
  obtain ⟨b', rfl⟩ := hb
  obtain ⟨c', rfl⟩ := hc
  simp only [← EReal.coe_mul]
  rw [dense_coe, dense_coe, ← EReal.coe_mul]
  congr 1
  rw [add_mul, Finset.sum_mul]
  congr 1
  · exact Finset.sum_congr rfl fun k _ => by ring
  · ring

/-! ## The two scalars -/

/-- The embedding of the reals is monotone, so it commutes with the maximum. -/
theorem coe_max' (a b : ℝ) : ((max a b : ℝ) : EReal) = max (a : EReal) (b : EReal) :=
  EReal.coe_strictMono.monotone.map_max

/-- The embedding of the reals is monotone, so it commutes with the minimum. -/
theorem coe_min' (a b : ℝ) : ((min a b : ℝ) : EReal) = min (a : EReal) (b : EReal) :=
  EReal.coe_strictMono.monotone.map_min

/-- The clipped exponential of a real is real. -/
theorem beta_real {lb : EReal} (h : IsReal lb) : IsReal (beta lb) := by
  obtain ⟨r, rfl⟩ := h
  refine ⟨min 20 (max (1 / 2) (Real.exp r)), ?_⟩
  rw [beta, c20_eq, cHalf_eq, Ideal.exp_coe, coe_min', coe_max']

/-- `δ` of a real is the logistic function of it. -/
theorem delta_coe (r : ℝ) : delta (r : EReal) = ((sg r : ℝ) : EReal) := logistic_coe' r

/-! ## The first layer -/

/-- The first layer: ten raw features against weights carrying `δ` and `1-δ` give what seven blended features give
    against the plain weights, by distributivity over the reals. -/
theorem layer1 {p : Fin 3 → EReal} {y : EReal} {xb q : Fin 3 → EReal} {w : Fin 7 → EReal} {b ld : EReal}
    (hp : ∀ k, IsReal (p k)) (hy : IsReal y) (hxb : ∀ k, IsReal (xb k)) (hq : ∀ k, IsReal (q k))
    (hw : ∀ k, IsReal (w k)) (hb : IsReal b) (hld : IsReal ld) :
    dense (xcat p y xb q)
        ![w 0, w 1, w 2, w 3, delta ld * w 4, delta ld * w 5, delta ld * w 6,
          (cOne - delta ld) * w 4, (cOne - delta ld) * w 5, (cOne - delta ld) * w 6] b
      = dense (xin p y xb q ld) w b := by
  obtain ⟨p', rfl⟩ := isReal_fun hp
  obtain ⟨y', rfl⟩ := hy
  obtain ⟨xb', rfl⟩ := isReal_fun hxb
  obtain ⟨q', rfl⟩ := isReal_fun hq
  obtain ⟨w', rfl⟩ := isReal_fun hw
  obtain ⟨b', rfl⟩ := hb
  obtain ⟨l, rfl⟩ := hld
  obtain ⟨a0, a1, a2, a3, a4, a5, a6, rfl⟩ : ∃ a0 a1 a2 a3 a4 a5 a6 : ℝ, w' = ![a0, a1, a2, a3, a4, a5, a6] :=
    ⟨w' 0, w' 1, w' 2, w' 3, w' 4, w' 5, w' 6, by funext k; fin_cases k <;> rfl⟩
  simp only [dense, xcat, xin, delta_coe, cOne_eq, Fin.sum_univ_succ, Fin.sum_univ_zero, Matrix.cons_val_zero,
    Matrix.cons_val_succ, Matrix.cons_val, add_zero]
  simp only [← EReal.coe_mul, ← EReal.coe_add, ← EReal.coe_sub]
  congr 1
  ring

/-- The reference's seven features are real when its arguments are. -/
theorem xin_real {p : Fin 3 → EReal} {y : EReal} {xb q : Fin 3 → EReal} {ld : EReal}
    (hp : ∀ k, IsReal (p k)) (hy : IsReal y) (hxb : ∀ k, IsReal (xb k)) (hq : ∀ k, IsReal (q k))
    (hld : IsReal ld) (k : Fin 7) : IsReal (xin p y xb q ld k) := by
  obtain ⟨p', rfl⟩ := isReal_fun hp
  obtain ⟨y', rfl⟩ := hy
  obtain ⟨xb', rfl⟩ := isReal_fun hxb
  obtain ⟨q', rfl⟩ := isReal_fun hq
  obtain ⟨l, rfl⟩ := hld
  simp only [xin, delta_coe, cOne_eq, ← EReal.coe_mul, ← EReal.coe_add, ← EReal.coe_sub]
  fin_cases k <;> exact ⟨_, rfl⟩

/-! ## The rows agree -/

/-- On real arguments the kernel's row and the reference's row are the same extended real. -/
theorem kFinal_eq_rOut (p : Fin 3 → EReal) (y : EReal) (xb q : Fin 3 → EReal)
    (W1 : Fin 256 → Fin 7 → EReal) (b1 : Fin 256 → EReal) (W2 : Fin 256 → Fin 256 → EReal) (b2 : Fin 256 → EReal)
    (W3 : Fin 128 → Fin 256 → EReal) (b3 : Fin 128 → EReal) (W4 : Fin 3 → Fin 128 → EReal) (b4 : Fin 3 → EReal)
    (lb ld : EReal)
    (hp : ∀ k, IsReal (p k)) (hy : IsReal y) (hxb : ∀ k, IsReal (xb k)) (hq : ∀ k, IsReal (q k))
    (hW1 : ∀ j k, IsReal (W1 j k)) (hb1 : ∀ j, IsReal (b1 j)) (hW2 : ∀ j k, IsReal (W2 j k)) (hb2 : ∀ j, IsReal (b2 j))
    (hW3 : ∀ j k, IsReal (W3 j k)) (hb3 : ∀ j, IsReal (b3 j)) (hW4 : ∀ j k, IsReal (W4 j k)) (hb4 : ∀ j, IsReal (b4 j))
    (hlb : IsReal lb) (hld : IsReal ld) (g : Fin 3) :
    kFinal p y xb q W1 b1 W2 b2 W3 b3 W4 b4 lb ld g = rOut p y xb q W1 b1 W2 b2 W3 b3 W4 b4 lb ld g := by
  -- layer 1: the blend folded into the weights is the blend applied to the features
  have e1 : ∀ j : Fin 256, dense (xcat p y xb q) (fun k => w1s W1 ld k j) (b1 j)
      = dense (xin p y xb q ld) (fun k => W1 j k) (b1 j) :=
    fun j => layer1 (w := fun k => W1 j k) hp hy hxb hq (hW1 j) (hb1 j) hld
  have r1 := fun j : Fin 256 =>
    dense_real (x := xin p y xb q ld) (w := fun k => W1 j k) (b := b1 j) (xin_real hp hy hxb hq hld) (hW1 j) (hb1 j)
  -- layers 2 and 3: equal real inputs, one activation on the reals
  have e2 := fun j : Fin 256 => dense_act_congr e1 r1 (fun k => W2 j k) (b2 j)
  have r2 := fun j : Fin 256 =>
    dense_real (w := fun k => W2 j k) (b := b2 j) (fun i => actR_real (r1 i)) (hW2 j) (hb2 j)
  have e3 := fun j : Fin 128 => dense_act_congr e2 r2 (fun k => W3 j k) (b3 j)
  have r3 := fun j : Fin 128 =>
    dense_real (w := fun k => W3 j k) (b := b3 j) (fun i => actR_real (r2 i)) (hW3 j) (hb3 j)
  -- layer 4: the scale on the weights and the bias is the scale on the logits
  have hβ := beta_real hlb
  have e4 : kLogits (xcat p y xb q) (w1s W1 ld) b1 (fun k j => W2 j k) b2 (fun k j => W3 j k) b3
      (fun k g => beta lb * W4 g k) (fun g => beta lb * b4 g) = rLogits p y xb q W1 b1 W2 b2 W3 b3 W4 b4 lb ld := by
    funext g'
    unfold kLogits rLogits
    refine (dense_act_congr e3 r3 _ _).trans ?_
    exact dense_scale (fun i => actR_real (r3 i)) (hW4 g') (hb4 g') hβ
  unfold kFinal kOut rOut
  rw [e4]

end Cert.Mlp

end
-- ==== Proof.Finite.lean ====
/-
  The precondition read back: every entry of every argument array is a real number.

  The precondition is the conjunction, over the fourteen arguments, of "every entry's absolute value is below
  `+∞`"; an extended real whose absolute value is below `+∞` is neither infinity, hence a real.
-/
import proofs.«406189_j49297634623652_3_alg».proof.Defs
import proofs.«406189_j49297634623652_3_alg».proof.Proof.Gen.KernelIdeal
import proofs.«406189_j49297634623652_3_alg».proof.Proof.Gen.Pre_finite_inputs
import proofs.«406189_j49297634623652_3_alg».proof.Proof.Spec
import Idealize.ShloMosaic.Lib.ValueIdx
import Idealize.ShloMosaic.Lib.ReduceAll
import Idealize.ShloMosaic.PureOps.Ideal.Laws

noncomputable section

namespace Cert.KernelIdeal.Finite

open Idealize.ShloMosaic Idealize.ShloMosaic.TcCoe Idealize.ShloMosaic.ValueIdx Idealize.SL.Sem Cert.KernelIdeal

/-- The f32 pattern of `+∞` reads as `⊤`. -/
theorem posInf_eq : (Ideal.ofBits .f32 0x7F800000#32 : EReal) = ⊤ := by
  simp [Ideal.ofBits, Ideal.ieee]

/-- An extended real whose absolute value is strictly below `+∞` is a real number. -/
theorem isReal_of_abs_lt (x : EReal)
    (h : Ideal.cmp .olt (max x (-x)) (Ideal.ofBits .f32 0x7F800000#32) = 1#1) : Cert.Mlp.IsReal x := by
  rw [posInf_eq] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- One argument's `all (|x| < +∞)` read back entry by entry. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) (i : s.Idx) :
    Cert.Mlp.IsReal (x i) := by
  have h := Host.reduce_andi_all _ _ hr hu ix0 e i
  exact isReal_of_abs_lt (x i) h

/-- The scalar arguments: no broadcast, the compare is against the constant itself. -/
theorem real_of_all_scalar {axes : List (Fin Cert.Pre_finite_inputs.S_.rank)}
    (hr : Cert.Pre_finite_inputs.S_.ReducesTo axes Cert.Pre_finite_inputs.S_) (hu : 0 < Cert.Pre_finite_inputs.S_.numel)
    (x : FVec Ideal Cert.Pre_finite_inputs.S_ .f32)
    (e : Host.reduce IntOp.andi
          (cmpf .olt (Host.absf x) (constant (F := Ideal) Cert.Pre_finite_inputs.S_ .f32 0x7F800000#32))
          (constantI Cert.Pre_finite_inputs.S_ 1 1#1) hr hu ix0 = 1#1) (i : Cert.Pre_finite_inputs.S_.Idx) :
    Cert.Mlp.IsReal (x i) := by
  have h := Host.reduce_andi_all _ _ hr hu ix0 e i
  exact isReal_of_abs_lt (x i) h

/-- A pointwise `and` of two `i1` arrays is 1 at an index exactly when both are. -/
theorem andi_apply_eq_one {s : Shape} (x y : IVec s 1) (i : s.Idx) :
    andi x y i = 1#1 ↔ x i = 1#1 ∧ y i = 1#1 := IntOp.andi_eq_one

/-- Under the precondition every entry of every argument array is a real number. -/
theorem real_of_pre (m : (ℓ : Loc nD τ sig) → Buf (Elt Ideal) ℓ) (h : Cert.Pre_KernelIdeal m) (c : Dev nD) :
    (∀ i, Cert.Mlp.IsReal ((m ((c.tc : Thread nD τ).loc main_arg0)) i))
    ∧ (∀ i, Cert.Mlp.IsReal ((m ((c.tc : Thread nD τ).loc main_arg1)) i))
    ∧ (∀ i, Cert.Mlp.IsReal ((m ((c.tc : Thread nD τ).loc main_arg2)) i))
    ∧ (∀ i, Cert.Mlp.IsReal ((m ((c.tc : Thread nD τ).loc main_arg3)) i))
    ∧ (∀ i, Cert.Mlp.IsReal ((m ((c.tc : Thread nD τ).loc main_arg4)) i))
    ∧ (∀ i, Cert.Mlp.IsReal ((m ((c.tc : Thread nD τ).loc main_arg5)) i))
    ∧ (∀ i, Cert.Mlp.IsReal ((m ((c.tc : Thread nD τ).loc main_arg6)) i))
    ∧ (∀ i, Cert.Mlp.IsReal ((m ((c.tc : Thread nD τ).loc main_arg7)) i))
    ∧ (∀ i, Cert.Mlp.IsReal ((m ((c.tc : Thread nD τ).loc main_arg8)) i))
    ∧ (∀ i, Cert.Mlp.IsReal ((m ((c.tc : Thread nD τ).loc main_arg9)) i))
    ∧ (∀ i, Cert.Mlp.IsReal ((m ((c.tc : Thread nD τ).loc main_arg10)) i))
    ∧ (∀ i, Cert.Mlp.IsReal ((m ((c.tc : Thread nD τ).loc main_arg11)) i))
    ∧ (∀ i, Cert.Mlp.IsReal ((m ((c.tc : Thread nD τ).loc main_arg12)) i))
    ∧ (∀ i, Cert.Mlp.IsReal ((m ((c.tc : Thread nD τ).loc main_arg13)) i)) := by
  have e := congrFun (h c) ix0
  dsimp only [Cert.Pre_finite_inputs.fn] at e
  dsimp only [Cert.Pre_finite_inputs.fn_part1] at e
  dsimp only [Cert.Pre_finite_inputs.fn_part2] at e
  dsimp only [Cert.Pre_finite_inputs.fn_part3] at e
  obtain ⟨e, e13⟩ := (andi_apply_eq_one _ _ _).1 e
  obtain ⟨e, e12⟩ := (andi_apply_eq_one _ _ _).1 e
  obtain ⟨e, e11⟩ := (andi_apply_eq_one _ _ _).1 e
  obtain ⟨e, e10⟩ := (andi_apply_eq_one _ _ _).1 e
  obtain ⟨e, e9⟩ := (andi_apply_eq_one _ _ _).1 e
  obtain ⟨e, e8⟩ := (andi_apply_eq_one _ _ _).1 e
  obtain ⟨e, e7⟩ := (andi_apply_eq_one _ _ _).1 e
  obtain ⟨e, e6⟩ := (andi_apply_eq_one _ _ _).1 e
  obtain ⟨e, e5⟩ := (andi_apply_eq_one _ _ _).1 e
  obtain ⟨e, e4⟩ := (andi_apply_eq_one _ _ _).1 e
  obtain ⟨e, e3⟩ := (andi_apply_eq_one _ _ _).1 e
  obtain ⟨e, e2⟩ := (andi_apply_eq_one _ _ _).1 e
  obtain ⟨e0, e1⟩ := (andi_apply_eq_one _ _ _).1 e
  exact ⟨real_of_all _ _ _ _ e0, real_of_all _ _ _ _ e1, real_of_all _ _ _ _ e2, real_of_all _ _ _ _ e3,
    real_of_all _ _ _ _ e4, real_of_all _ _ _ _ e5, real_of_all _ _ _ _ e6, real_of_all _ _ _ _ e7,
    real_of_all _ _ _ _ e8, real_of_all _ _ _ _ e9, real_of_all _ _ _ _ e10, real_of_all _ _ _ _ e11,
    real_of_all_scalar _ _ _ e12, real_of_all_scalar _ _ _ e13⟩

end Cert.KernelIdeal.Finite

end
-- ==== Proof.lean ====
/-
  The certificate's five claims.

  The kernel runs each of the 262144 rows through a four-layer perceptron and a three-way softmax on the chip; the
  reference does the same with plain array operations.  The three frames: the two kernel programs by the launch's
  frame (`Frame.frame`, one text generic in the float instance, read at the word level and at the extended
  reals), the reference by its run.  The idealization rewrote nothing, so `preserves` is trivial.  The
  algebraic claim: the kernel's result array is, entry by entry, the kernel's row function of the arguments
  (`KValue.Gv_apply`), the reference's result is the reference's row function (`RefValue.ref_apply`), and on
  real inputs — which the precondition gives (`Finite.real_of_pre`) — the two row functions agree
  (`Cert.Mlp.kFinal_eq_rOut`): the tanh form of the activation is the logistic form, and the scalars `δ`, `β`
  move between features, logits and weights by distributivity.
-/
import proofs.«406189_j49297634623652_3_alg».proof.Defs
import proofs.«406189_j49297634623652_3_alg».proof.Proof.Gen.Kernel
import proofs.«406189_j49297634623652_3_alg».proof.Proof.Gen.KernelIdeal
import proofs.«406189_j49297634623652_3_alg».proof.Proof.Gen.ReferenceIdeal
import proofs.«406189_j49297634623652_3_alg».proof.Proof.Gen.Pre_finite_inputs
import proofs.«406189_j49297634623652_3_alg».proof.Proof.Gen.ReferenceIdeal.Run
import proofs.«406189_j49297634623652_3_alg».proof.Proof.Gen.ReferenceIdeal.Read
import proofs.«406189_j49297634623652_3_alg».proof.Proof.KFrameBits
import proofs.«406189_j49297634623652_3_alg».proof.Proof.KFrame
import proofs.«406189_j49297634623652_3_alg».proof.Proof.KValue
import proofs.«406189_j49297634623652_3_alg».proof.Proof.RefValue
import proofs.«406189_j49297634623652_3_alg».proof.Proof.SpecMath
import proofs.«406189_j49297634623652_3_alg».proof.Proof.Finite
import Idealize.ShloMosaic.Lib.ValueIdx
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result array: at `(r, g)` the
    kernel's row function of row `r`, which on the real inputs the precondition grants is the reference's. -/
theorem algebraic : Cert.algebraic_KernelIdeal_ReferenceIdeal := by
  intro m ρ m' ρ' hpre hagree
  refine ⟨fun c => Cert.KernelIdeal.KValue.Gv m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq]
  obtain ⟨a0, a1, a2, a3, a4, a5, a6, a7, a8, a9, a10, a11, a12, a13⟩ := hagree c
  rw [a0, a1, a2, a3, a4, a5, a6, a7, a8, a9, a10, a11, a12, a13]
  obtain ⟨r0, r1, r2, r3, r4, r5, r6, r7, r8, r9, r10, r11, r12, r13⟩ := Cert.KernelIdeal.Finite.real_of_pre m hpre c
  funext i
  obtain ⟨r, g, rfl⟩ : ∃ (r : Fin 262144) (g : Fin 3), i = ix2 r g := ⟨i 0, i 1, eq_ix2 i⟩
  rw [Cert.ReferenceIdeal.RefValue.ref_apply]
  refine Eq.trans ?_ (Cert.KernelIdeal.KValue.Gv_apply m c r g).symm
  exact (Cert.Mlp.kFinal_eq_rOut _ _ _ _ _ _ _ _ _ _ _ _ _ _ (fun _ => r0 _) (r1 _) (fun _ => r2 _) (fun _ => r3 _)
    (fun _ _ => r4 _) (fun _ => r5 _) (fun _ _ => r6 _) (fun _ => r7 _) (fun _ _ => r8 _) (fun _ => r9 _)
    (fun _ _ => r10 _) (fun _ => r11 _) (r12 _) (r13 _) g).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
